-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S256 : Shape := ⟨1, ![256]⟩
abbrev S256x1 : Shape := ⟨2, ![256, 1]⟩
abbrev S1x128 : Shape := ⟨2, ![1, 128]⟩
abbrev S800000x128 : Shape := ⟨2, ![800000, 128]⟩
abbrev S5000x128 : Shape := ⟨2, ![5000, 128]⟩
abbrev S5000x1 : Shape := ⟨2, ![5000, 1]⟩
abbrev S2x256x128 : Shape := ⟨3, ![2, 256, 128]⟩
abbrev S1000x128 : Shape := ⟨2, ![1000, 128]⟩
abbrev S1000x1 : Shape := ⟨2, ![1000, 1]⟩
abbrev S1x256x128 : Shape := ⟨3, ![1, 256, 128]⟩
abbrev S256x128 : Shape := ⟨2, ![256, 128]⟩
abbrev S1000x256 : Shape := ⟨2, ![1000, 256]⟩
abbrev S256x2 : Shape := ⟨2, ![256, 2]⟩
abbrev S1x2 : Shape := ⟨2, ![1, 2]⟩

abbrev nBuf : Space → Nat
  | .hbm => 98
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .f32⟩
  | .hbm, ⟨29, _⟩ => ⟨S50000, .f32⟩
  | .hbm, ⟨30, _⟩ => ⟨S_, .f32⟩
  | .hbm, ⟨31, _⟩ => ⟨S256, .f32⟩
  | .hbm, ⟨32, _⟩ => ⟨S50000x1, .i32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256x1, .f32⟩
  | .hbm, ⟨41, _⟩ => ⟨S1x128, .f32⟩
  | .hbm, ⟨42, _⟩ => ⟨S1x128, .f32⟩
  | .hbm, ⟨43, _⟩ => ⟨S50000x1, .i32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S2x256x128, .f32⟩
  | .hbm, ⟨72, _⟩ => ⟨S1x256x128, .f32⟩
  | .hbm, ⟨73, _⟩ => ⟨S256x128, .f32⟩
  | .hbm, ⟨74, _⟩ => ⟨S1x256x128, .f32⟩
  | .hbm, ⟨75, _⟩ => ⟨S256x128, .f32⟩
  | .hbm, ⟨76, _⟩ => ⟨S256x128, .f32⟩
  | .hbm, ⟨77, _⟩ => ⟨S256x128, .f32⟩
  | .hbm, ⟨78, _⟩ => ⟨S256x128, .f32⟩
  | .hbm, ⟨79, _⟩ => ⟨S256x2, .f32⟩
  | .hbm, ⟨80, _⟩ => ⟨S1x2, .f32⟩
  | .hbm, ⟨81, _⟩ => ⟨S256x2, .f32⟩
  | .hbm, ⟨82, _⟩ => ⟨S256x2, .f32⟩
  | .hbm, ⟨83, _⟩ => ⟨S_, .f32⟩
  | .hbm, ⟨84, _⟩ => ⟨S256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S256x1, .f32⟩
  | .hbm, ⟨89, _⟩ => ⟨S256x2, .f32⟩
  | .hbm, ⟨90, _⟩ => ⟨S256x2, .f32⟩
  | .hbm, ⟨91, _⟩ => ⟨S256x2, .f32⟩
  | .hbm, ⟨92, _⟩ => ⟨S_, .f32⟩
  | .hbm, ⟨93, _⟩ => ⟨S256, .f32⟩
  | .hbm, ⟨94, _⟩ => ⟨S256x1, .f32⟩
  | .hbm, ⟨95, _⟩ => ⟨S256x1, .f32⟩
  | .hbm, ⟨96, _⟩ => ⟨S256x2, .f32⟩
  | .hbm, ⟨97, _⟩ => ⟨S256x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x1, .f32⟩
  | .local _ .vmem, ⟨16, _⟩ => ⟨S1000x1, .f32⟩
  | .local _ .vmem, ⟨17, _⟩ => ⟨S1000x1, .i32⟩
  | .local _ .vmem, ⟨18, _⟩ => ⟨S1000x1, .i32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S1x256x128, .f32⟩
  | .local _ .vmem, ⟨23, _⟩ => ⟨S1x256x128, .f32⟩
  | .local _ .vmem, ⟨24, _⟩ => ⟨S256x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call0_cst : Ref sig .tc := ⟨.hbm, 83, rfl⟩
abbrev main_call0_v0 : Ref sig .tc := ⟨.hbm, 84, rfl⟩
abbrev main_call0_cst_0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_cst_1 : Ref sig .tc := ⟨.hbm, 92, rfl⟩
abbrev main_call0_v7 : Ref sig .tc := ⟨.hbm, 93, rfl⟩
abbrev main_call0_v8 : Ref sig .tc := ⟨.hbm, 94, rfl⟩
abbrev main_call0_v9 : Ref sig .tc := ⟨.hbm, 95, rfl⟩
abbrev main_call0_v10 : Ref sig .tc := ⟨.hbm, 96, rfl⟩
abbrev main_v58 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v41 : BitVec 1 := Scalar.cmpi .eq arg1 c24_i32
  let v42 : BitVec 32 := Scalar.extui v41
  let c0_i32_21 : BitVec 32 := 0#32
  let v43 : BitVec 1 := Scalar.cmpi .ne v42 c0_i32_21
  v43

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S256 : S_.BroadcastsInDim S256 (![] : Fin 0 → Fin S256.rank)
  bcast_S50000_S50000x1_0 : S50000.BroadcastsInDim S50000x1 (![0] : Fin 1 → Fin S50000x1.rank)
  shapeCasts_S256_S256x1 : S256.ShapeCasts S256x1
  shapeCasts_S128_S1x128 : S128.ShapeCasts S1x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  iota_S1000x256_d1_w32 : S1000x256.Iotas .tc 32 [1]
  broadcasts_S1000x1_S1000x256 : S1000x1.Broadcasts S1000x256
  natLt_1_32 : 1 < 32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  slices_S2x256x128_S1x256x128_0_0_0 : S2x256x128.Slices ![0, 0, 0] S1x256x128
  slices_S2x256x128_S1x256x128_1_0_0 : S2x256x128.Slices ![1, 0, 0] S1x256x128
  bcast_S256x1_S256x128_0_1 : S256x1.BroadcastsInDim S256x128 (![0, 1] : Fin 2 → Fin S256x128.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  h_S_ : 0 < S_.numel
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  scatter_S50000_S800000x1_S800000_n_0_0_1_wf : ScatterDims.WF S50000 S800000x1 S800000 [] [0] [0] 1
  scatter_S256_S50000x1_S50000_n_0_0_1_wf : ScatterDims.WF S256 S50000x1 S50000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S1000x128_S128x128_S1000x128_1_0_0_1_n_n_wf : DotDims.WF S1000x128 S128x128 S1000x128 [1] [0] [0] [1] [] []
  dot_S1000x256_S1000x128_S256x128_0_0_1_1_n_n_wf : DotDims.WF S1000x256 S1000x128 S256x128 [0] [0] [1] [1] [] []
  dot_S256x128_S128x2_S256x2_1_0_0_1_n_n_wf : DotDims.WF S256x128 S128x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1.size a ≤ S50000x1.size a
  hwx1_3 : ∀ i : grid1.Coords, EltTy.bits .i32 = 32 ∨ (Rect.block (s := S50000x1) S1000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x128.size a ≤ S2x256x128.size a
  hwx1_7 : ∀ i : grid1.Coords, EltTy.bits .f32 = 32 ∨ (Rect.block (s := S2x256x128) S1x256x128.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x256_S1000x128_S256x128_0_0_1_1_n_n : DotDims S1000x256 S1000x128 S256x128 where
  lhsContracting := [0]
  rhsContracting := [0]
  lhsNonContracting := [1]
  rhsNonContracting := [1]
  lhsBatch := []
  rhsBatch := []
  wf := dot_S1000x256_S1000x128_S256x128_0_0_1_1_n_n_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf

abbrev win0_0 : Pipeline.Window sig grid0 :=
  Pipeline.Window.ofSpec (Memref.whole main_v34) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v45) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x256x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S256x128, .f32⟩
  | .hbm, ⟨85, _⟩ => ⟨S50000x1, .i32⟩
  | .hbm, ⟨86, _⟩ => ⟨S256x128, .f32⟩
  | .hbm, ⟨87, _⟩ => ⟨S_, .f32⟩
  | .hbm, ⟨88, _⟩ => ⟨S50000, .f32⟩
  | .hbm, ⟨89, _⟩ => ⟨S_, .f32⟩
  | .hbm, ⟨90, _⟩ => ⟨S256, .f32⟩
  | .hbm, ⟨91, _⟩ => ⟨S50000x1, .i32⟩
  | .hbm, ⟨92, _⟩ => ⟨S256, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S256x1, .f32⟩
  | .hbm, ⟨97, _⟩ => ⟨S256x128, .f32⟩
  | .hbm, ⟨98, _⟩ => ⟨S256x128, .f32⟩
  | .hbm, ⟨99, _⟩ => ⟨S256x2, .f32⟩
  | .hbm, ⟨100, _⟩ => ⟨S1x2, .f32⟩
  | .hbm, ⟨101, _⟩ => ⟨S256x2, .f32⟩
  | .hbm, ⟨102, _⟩ => ⟨S256x2, .f32⟩
  | .hbm, ⟨103, _⟩ => ⟨S_, .f32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x2, .f32⟩
  | .hbm, ⟨110, _⟩ => ⟨S256x2, .f32⟩
  | .hbm, ⟨111, _⟩ => ⟨S256x2, .f32⟩
  | .hbm, ⟨112, _⟩ => ⟨S_, .f32⟩
  | .hbm, ⟨113, _⟩ => ⟨S256, .f32⟩
  | .hbm, ⟨114, _⟩ => ⟨S256x1, .f32⟩
  | .hbm, ⟨115, _⟩ => ⟨S256x1, .f32⟩
  | .hbm, ⟨116, _⟩ => ⟨S256x2, .f32⟩
  | .hbm, ⟨117, _⟩ => ⟨S256x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call2_cst : Ref sig .tc := ⟨.hbm, 103, rfl⟩
abbrev main_call2_v0 : Ref sig .tc := ⟨.hbm, 104, rfl⟩
abbrev main_call2_cst_0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_cst_1 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_v72 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  h_S_ : 0 < S_.numel
  bcast_S256x1_S256x2_0_1 : S256x1.BroadcastsInDim S256x2 (![0, 1] : Fin 2 → Fin S256x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x2_S256x2_1_0_0_1_n_n_wf : DotDims.WF S256x128 S128x2 S256x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf

class Facts : Prop extends Facts₀ where

variable [Facts]
-- ==== Proof.KRegion0.lean ====
import proofs.«409877_j67551245631640_3_alg».proof.Proof.Gen.Kernel.Launch
import proofs.«409877_j67551245631640_3_alg».proof.Proof.Gen.Kernel.Skeleton
import proofs.«409877_j67551245631640_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: one dense layer per block of 5000 nodes

At each of the ten grid points the body reads the point's block of the summed neighbour features, of the node
features and of the inverse degrees, the two weight matrices and the bias row, and stores
`max (0, (agg · dinv) W_l + x W_r + b)` over the whole output block. Nothing is carried from one point to the
next, so what the output's staging buffer holds after the body is one function of the six input blocks. -/

section Region0
-- the TensorCore's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every point its current staging buffer holds the window's block of the array, whether the
    point fetches it or the block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every point its current staging buffer holds the window's block of the array, whether the
    point fetches it or the block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: at every point its current staging buffer holds the window's block of the array, whether the
    point fetches it or the block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: at every point its current staging buffer holds the window's block of the array, whether the
    point fetches it or the block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: at every point its current staging buffer holds the window's block of the array, whether the
    point fetches it or the block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: at every point its current staging buffer holds the window's block of the array, whether the
    point fetches it or the block index has not moved since the fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 × 128 block, the one rectangle the body stores through. -/
abbrev r0_out : Rect S5000x128 := Rect.unit (s := S5000x128) ![0, 0] S5000x128.size inb_S5000x128_S5000x128_0_0
abbrev r0_col : Rect S5000x1 := Rect.unit (s := S5000x1) ![0, 0] S5000x1.size inb_S5000x1_S5000x1_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- The output block after the body, from the six input blocks: the layer's value, stored whole. -/
def out0_6 (x0 : Vec F S5000x128 .f32) (x1 : Vec F S5000x128 .f32) (x2 : Vec F S5000x1 .f32) (x3 : Vec F S128x128 .f32)
    (x4 : Vec F S128x128 .f32) (x5 : Vec F S1x128 .f32) : Vec F S5000x128 .f32 :=
  View.canon [⟨r0_out, k0_pay1 (View.ld x0 r0_out) (View.ld x2 r0_col) (View.ld x1 r0_out) (View.ld x3 r0_w) (View.ld x4 r0_w) (View.ld x5 r0_b)⟩]

/-- The one store covers the block. -/
theorem cover0_6 (p0 : Vec F S5000x128 .f32) (y : S5000x128.Idx) :
    ∃ pc ∈ ([⟨r0_out, p0⟩] : List (View.Piece (Elt F) S5000x128 .f32)), y ∈ pc.1.set :=
  View.cover_of_tiled [⟨r0_out, p0⟩] S5000x128.size (by rfl) y

set_option maxHeartbeats 1000000 in
/-- The body on whole staging memrefs: the six inputs are read and left as they were, the output's buffer ends at
    `out0_6` of them whatever it held. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 : Vec F S5000x128 .f32) (x1 : Vec F S5000x128 .f32) (x2 : Vec F S5000x1 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__linear_relu_kernel i arg1 harg1 arg2 harg2 arg3 harg3 arg4 harg4 arg5 harg5 arg6 harg6 arg7 harg7) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of the first call on core `c`: the arrays as the call finds them; after the body each input's
    buffer still at its block and the output's at `out0_6` of the input blocks; between points only the scoped rest
    and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: each input's memref holds its block, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
import proofs.«409877_j67551245631640_3_alg».proof.Proof.Gen.Kernel.Launch
import proofs.«409877_j67551245631640_3_alg».proof.Proof.Gen.Kernel.Skeleton
import proofs.«409877_j67551245631640_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: the second dense layer, pooled per graph as it goes

The grid is 2 × 25: core-half `p` of the nodes, block `i` of 1000 nodes within it. At each point the body forms the
layer's value on the block, multiplies its transpose-side with the block's one-hot graph indicator (a 256 × 128
contribution), and adds that into a scratch accumulator which it zeroes at `i = 0`; at `i = 24` it copies the
accumulator into the output block `p`. So the scratch is carried from point to point and the output window is
idle except at the last block of each half. -/

section Region1
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- "this is the first block of the half": the body's first `scf.if`. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)
/-- "this is the last block of the half": the body's second `scf.if`. -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-- The inputs are never idle; the output is idle exactly off the last block of a half, and not written back there. -/
theorem liveAt1_in (w : Fin cfg1.W) (hw : w.val < 7) : ∀ i, cfg1.idle w i = false := by
  intro i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl
theorem idleAt1_7 : ∀ t : Fin cfg1.N, ¬cond1_1 (grid1.coords t) → cfg1.idle 7 (grid1.coords t) = true := by decide +kernel
theorem liveAt1_7 : ∀ t : Fin cfg1.N, cond1_1 (grid1.coords t) → cfg1.idle 7 (grid1.coords t) = false := by decide +kernel
theorem noFlush1_7 : ∀ t : Fin cfg1.N, ¬cond1_1 (grid1.coords t) → (cfg1.win 7).flush t = false := by decide +kernel

/-! ## The body's rectangles and what it computes -/

abbrev r1_in : Rect S1000x128 := Rect.unit (s := S1000x128) ![0, 0] S1000x128.size inb_S1000x128_S1000x128_0_0
abbrev r1_col : Rect S1000x1 := Rect.unit (s := S1000x1) ![0, 0] S1000x1.size inb_S1000x1_S1000x1_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_acc : Rect S256x128 := Rect.unit (s := S256x128) ![0, 0] S256x128.size inb_S256x128_S256x128_0_0
abbrev r1_out : Rect S1x256x128 := Rect.unit (s := S1x256x128) ![0, 0, 0] S1x256x128.size inb_S1x256x128_S1x256x128_0_0_0

/-- The scratch operand: a whole scoped buffer of the kernel's own. -/
abbrev scM1 : Memref sig .tc .vmem S256x128 .f32 := Memref.whole cc1_scratch0

/-- One block's contribution to the pooled sums: (one-hot of the block's graph ids)ᵀ · (the layer's value on the block). -/
def contrib1 (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) : Vec F S256x128 .f32 :=
  k1_pay4 (View.ld x0 r1_in) (View.ld x2 r1_col) (View.ld x1 r1_in) (View.ld x4 r1_w) (View.ld x5 r1_w) (View.ld x6 r1_b) (View.ld x3 r1_col)

/-- The accumulator after a point that is not the first of its half: the contribution added to what it held. -/
def accNext (prev : Vec F S256x128 .f32) (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) : Vec F S256x128 .f32 :=
  View.canon [⟨r1_acc, k1_pay1 (contrib1 x0 x1 x2 x3 x4 x5 x6) (View.ld prev r1_acc)⟩]

/-- The accumulator after the first point of a half: zeroed, then the contribution added. -/
def accFirst (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) : Vec F S256x128 .f32 :=
  View.canon [⟨r1_acc, k1_pay1 (contrib1 x0 x1 x2 x3 x4 x5 x6) (View.ld (View.canon [⟨r1_acc, k1_pay3 (F := F)⟩]) r1_acc)⟩, ⟨r1_acc, k1_pay3 (F := F)⟩]

/-- The output block the last point of a half stores: the accumulator, as a 1 × 256 × 128 block. -/
def outOf (acc : Vec F S256x128 .f32) : Vec F S1x256x128 .f32 :=
  View.canon [⟨r1_out, k1_pay2 (View.ld acc r1_acc)⟩]

theorem cover1_acc (p0 : Vec F S256x128 .f32) (y : S256x128.Idx) :
    ∃ pc ∈ ([⟨r1_acc, p0⟩] : List (View.Piece (Elt F) S256x128 .f32)), y ∈ pc.1.set :=
  View.cover_of_tiled [⟨r1_acc, p0⟩] S256x128.size (by rfl) y
theorem cover1_acc2 (p0 p1 : Vec F S256x128 .f32) (y : S256x128.Idx) :
    ∃ pc ∈ ([⟨r1_acc, p0⟩, ⟨r1_acc, p1⟩] : List (View.Piece (Elt F) S256x128 .f32)), y ∈ pc.1.set := by
  obtain ⟨pc, hm, hy⟩ := cover1_acc p0 y
  exact ⟨pc, List.mem_cons.mpr (Or.inl (List.mem_singleton.mp hm)), hy⟩
theorem cover1_out (p0 : Vec F S1x256x128 .f32) (y : S1x256x128.Idx) :
    ∃ pc ∈ ([⟨r1_out, p0⟩] : List (View.Piece (Elt F) S1x256x128 .f32)), y ∈ pc.1.set :=
  View.cover_of_tiled [⟨r1_out, p0⟩] S1x256x128.size (by rfl) y

/-! ## The body's triple, case by case -/

set_option maxHeartbeats 2000000 in
/-- First block of a half (and not the last): the scratch may hold anything, and ends at `accFirst`; the output's
    buffer is handed back untouched. -/
theorem sound_kernel1_A (c : Dev nD) (E : Set ℕ) (i : grid1.Coords)
    (arg2 : Memref sig .tc .vmem S1000x128 .f32) (harg2 : arg2.IsWhole) (arg3 : Memref sig .tc .vmem S1000x128 .f32) (harg3 : arg3.IsWhole)
    (arg4 : Memref sig .tc .vmem S1000x1 .f32) (harg4 : arg4.IsWhole) (arg5 : Memref sig .tc .vmem S1000x1 .i32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1x256x128 .f32) (harg9 : arg9.IsWhole)
    (arg10 : Memref sig .tc .vmem S256x128 .f32) (harg10 : arg10.IsWhole)
    (hc0 : cond1_0 i) (hc1 : ¬cond1_1 i)
    (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) (xi : Vec F S1x256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare xi
            ∗ owns (c : Thread nD τ) arg10 fullShare (accFirst x0 x1 x2 x3 x4 x5 x6)) -∗ K ⟨⟩))
      ⊢ wp frame (wpE (defs₀ (F := F)) Variants.none c none) E (cc1__sage2_pool_kernel i arg2 harg2 arg3 harg3 arg4 harg4 arg5 harg5 arg6 harg6 arg7 harg7 arg8 harg8 arg9 harg9 arg10 harg10) K := by
  simp only [cc1__sage2_pool_kernel_eq_skeleton]; unfold cc1__sage2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%ds, %fs, -, HS⟩, Hk⟩
  subst hf0; subst hf1; subst hf2; subst hf3; subst hf4; subst hf5; subst hf6; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact HS
  ipureintro
  sl_unfold_words
  rw [View.readCov_eq_canon_ld _ _ _ (cover1_acc _)]
  exact View.read_writes_eq_canon _ _ _ (cover1_acc2 _ _)

set_option maxHeartbeats 2000000 in
/-- A block in the middle of a half: the scratch holds `xs` and ends at `accNext xs`; the output's buffer is handed
    back untouched. -/
theorem sound_kernel1_B (c : Dev nD) (E : Set ℕ) (i : grid1.Coords)
    (arg2 : Memref sig .tc .vmem S1000x128 .f32) (harg2 : arg2.IsWhole) (arg3 : Memref sig .tc .vmem S1000x128 .f32) (harg3 : arg3.IsWhole)
    (arg4 : Memref sig .tc .vmem S1000x1 .f32) (harg4 : arg4.IsWhole) (arg5 : Memref sig .tc .vmem S1000x1 .i32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1x256x128 .f32) (harg9 : arg9.IsWhole)
    (arg10 : Memref sig .tc .vmem S256x128 .f32) (harg10 : arg10.IsWhole)
    (hc0 : ¬cond1_0 i) (hc1 : ¬cond1_1 i)
    (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) (xs : Vec F S256x128 .f32) (xi : Vec F S1x256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare xi
            ∗ owns (c : Thread nD τ) arg10 fullShare (accNext xs x0 x1 x2 x3 x4 x5 x6)) -∗ K ⟨⟩))
      ⊢ wp frame (wpE (defs₀ (F := F)) Variants.none c none) E (cc1__sage2_pool_kernel i arg2 harg2 arg3 harg3 arg4 harg4 arg5 harg5 arg6 harg6 arg7 harg7 arg8 harg8 arg9 harg9 arg10 harg10) K := by
  simp only [cc1__sage2_pool_kernel_eq_skeleton]; unfold cc1__sage2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%fs, %hfs, HS⟩, Hk⟩
  subst hf0; subst hf1; subst hf2; subst hf3; subst hf4; subst hf5; subst hf6; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact HS
  ipureintro
  sl_unfold_words
  exact View.read_writes_eq_canon _ _ _ (cover1_acc _)

set_option maxHeartbeats 2000000 in
/-- Last block of a half (and not the first): the scratch holds `xs` and ends at `accNext xs`, which the output's
    buffer, whatever it held, receives as a block. -/
theorem sound_kernel1_C (c : Dev nD) (E : Set ℕ) (i : grid1.Coords)
    (arg2 : Memref sig .tc .vmem S1000x128 .f32) (harg2 : arg2.IsWhole) (arg3 : Memref sig .tc .vmem S1000x128 .f32) (harg3 : arg3.IsWhole)
    (arg4 : Memref sig .tc .vmem S1000x1 .f32) (harg4 : arg4.IsWhole) (arg5 : Memref sig .tc .vmem S1000x1 .i32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1x256x128 .f32) (harg9 : arg9.IsWhole)
    (arg10 : Memref sig .tc .vmem S256x128 .f32) (harg10 : arg10.IsWhole)
    (hc0 : ¬cond1_0 i) (hc1 : cond1_1 i)
    (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) (xs : Vec F S256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outOf (accNext xs x0 x1 x2 x3 x4 x5 x6))
            ∗ owns (c : Thread nD τ) arg10 fullShare (accNext xs x0 x1 x2 x3 x4 x5 x6)) -∗ K ⟨⟩))
      ⊢ wp frame (wpE (defs₀ (F := F)) Variants.none c none) E (cc1__sage2_pool_kernel i arg2 harg2 arg3 harg3 arg4 harg4 arg5 harg5 arg6 harg6 arg7 harg7 arg8 harg8 arg9 harg9 arg10 harg10) K := by
  simp only [cc1__sage2_pool_kernel_eq_skeleton]; unfold cc1__sage2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    sl_unfold_words
    rw [View.readCov_eq_canon_ld _ _ _ (cover1_acc _)]
    exact View.read_writes_eq_canon _ _ _ (cover1_out _)
  iexists _; isplitr
  swap; · iexact HS
  ipureintro
  sl_unfold_words
  exact View.read_writes_eq_canon _ _ _ (cover1_acc _)

/-! ## What the scratch holds after each point -/

/-- The accumulator after the body at position `n`: restarted at the first block of each half, else the previous
    point's with this block's contribution added. -/
def accAt (c : Dev nD) : (n : ℕ) → n < cfg1.N → Vec F S256x128 .f32
  | 0, hn => accFirst (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if (n + 1) % 25 = 0 then accFirst (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else accNext (accAt c n (Nat.lt_of_succ_lt hn)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)

theorem accAt_first (c : Dev nD) (t : Fin cfg1.N) (h0 : t.val % 25 = 0) :
    accAt V c t.val t.isLt = accFirst (iblk1 V c 0 t) (iblk1 V c 1 t) (iblk1 V c 2 t) (iblk1 V c 3 t) (iblk1 V c 4 t) (iblk1 V c 5 t) (iblk1 V c 6 t) := by
  obtain ⟨n, hn⟩ := t
  cases n with
  | zero => rfl
  | succ n => exact if_pos h0

theorem accAt_next (c : Dev nD) (t : Fin cfg1.N) (h0 : ¬t.val % 25 = 0) :
    accAt V c t.val t.isLt = accNext (accAt V c (t.val - 1) (Nat.lt_of_le_of_lt (Nat.sub_le _ _) t.isLt)) (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact absurd (Nat.zero_mod _) h0
  | succ n => exact if_neg h0

/-- The scoped buffers the second call's windows do not stage — the first call's staging buffers, each at some
    contents — beside the scratch in state `S`. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ S)

/-- The invariant before position `n`: before the first point the scoped rest and the generator register, the
    scratch at anything; afterwards the scratch at what the point before left. -/
def PhiS1 (c : Dev nD) : (n : ℕ) → n ≤ cfg1.N → sProp 𝕄
  | 0, _ => Pipeline.ΦA spec1 c
  | n + 1, hn => iprop(scoped1 c (owns (c : Thread nD τ) scM1 fullShare (accAt V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 c (owns (c : Thread nD τ) scM1 fullShare (accAt V c n hn)) ∗ (∃ r, prngReg c r)) := rfl
theorem PhiS1_pos (c : Dev nD) (n : ℕ) (h : n ≤ cfg1.N) (hz : n ≠ 0) :
    PhiS1 V c n h = iprop(scoped1 c (owns (c : Thread nD τ) scM1 fullShare (accAt V c (n - 1) (by omega))) ∗ (∃ r, prngReg c r)) := by
  cases n with
  | zero => exact absurd rfl hz
  | succ n => rfl

/-- The class's invariant with the scratch spelled as a memref owned at some contents. -/
theorem PhiA1_eq (c : Dev nD) :
    (Pipeline.ΦA spec1 c : sProp 𝕄) = iprop(scoped1 c iprop(∃ d, owns (c : Thread nD τ) scM1 fullShare d) ∗ (∃ r, prngReg c r)) := by
  unfold Pipeline.ΦA scoped1; rw [scopedRest1_eq]; simp only [scM1, owns_whole]; try rfl

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outOf (accAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outOf (accAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: which of the three cases the point is in is decided by its position in the half. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  unfold scoped1
  have hN : t.val < 50 := lt_of_lt_of_eq t.isLt (show cfg1.N = 50 from N_1)
  rw [show (dat1 V c).leavesExact 0 t = owns (c : Thread nD τ) (st1_0 t) fullShare ((dat1 V c).after 0 t) from by
    unfold Dat.leavesExact; rw [liveAt1_in 0 (by decide)], after1_0]
  rw [show (dat1 V c).leavesExact 1 t = owns (c : Thread nD τ) (st1_1 t) fullShare ((dat1 V c).after 1 t) from by
    unfold Dat.leavesExact; rw [liveAt1_in 1 (by decide)], after1_1]
  rw [show (dat1 V c).leavesExact 2 t = owns (c : Thread nD τ) (st1_2 t) fullShare ((dat1 V c).after 2 t) from by
    unfold Dat.leavesExact; rw [liveAt1_in 2 (by decide)], after1_2]
  rw [show (dat1 V c).leavesExact 3 t = owns (c : Thread nD τ) (st1_3 t) fullShare ((dat1 V c).after 3 t) from by
    unfold Dat.leavesExact; rw [liveAt1_in 3 (by decide)], after1_3]
  rw [show (dat1 V c).leavesExact 4 t = owns (c : Thread nD τ) (st1_4 t) fullShare ((dat1 V c).after 4 t) from by
    unfold Dat.leavesExact; rw [liveAt1_in 4 (by decide)], after1_4]
  rw [show (dat1 V c).leavesExact 5 t = owns (c : Thread nD τ) (st1_5 t) fullShare ((dat1 V c).after 5 t) from by
    unfold Dat.leavesExact; rw [liveAt1_in 5 (by decide)], after1_5]
  rw [show (dat1 V c).leavesExact 6 t = owns (c : Thread nD τ) (st1_6 t) fullShare ((dat1 V c).after 6 t) from by
    unfold Dat.leavesExact; rw [liveAt1_in 6 (by decide)], after1_6]
  by_cases h0 : t.val % 25 = 0
  · by_cases h1 : t.val % 25 = 24
    · exfalso; omega
    · rw [Dat.leavesExact_idle (dat1 V c) 7 t (idleAt1_7 t (fun h => h1 ((hcond1_1 t).mp h))) (noFlush1_7 t (fun h => h1 ((hcond1_1 t).mp h)))]
      rw [accAt_first V c t h0]
      by_cases hz : t.val = 0
      · rw [PhiS1_castSucc V c t, PhiS1_zero V c _ _ hz, PhiA1_eq]; unfold scoped1
        iintro ⟨⟨⟨A0, A1, A2, A3, A4, A5, A6, A7, A8, A9, A10, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (sound_kernel1_A c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [A0 A1 A2 A3 A4 A5 A6 A7 A8 A9 A10 HS Hg]
        · isplitl [A0 A1 A2 A3 A4 A5 A6 A7 A8 A9 A10 HS]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS1_castSucc V c t, PhiS1_pos V c _ _ hz]; unfold scoped1
        iintro ⟨⟨⟨A0, A1, A2, A3, A4, A5, A6, A7, A8, A9, A10, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (sound_kernel1_A c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, HS⟩
        isplitl [A0 A1 A2 A3 A4 A5 A6 A7 A8 A9 A10 HS Hg]
        · isplitl [A0 A1 A2 A3 A4 A5 A6 A7 A8 A9 A10 HS]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun e => h0 (by rw [e])
    rw [PhiS1_castSucc V c t, PhiS1_pos V c _ _ hz, accAt_next V c t h0]; unfold scoped1
    by_cases h1 : t.val % 25 = 24
    · rw [show (dat1 V c).leavesExact 7 t = owns (c : Thread nD τ) (st1_7 t) fullShare ((dat1 V c).after 7 t) from by
        unfold Dat.leavesExact; rw [liveAt1_7 t ((hcond1_1 t).mpr h1)], after1_7, accAt_next V c t h0]
      iintro ⟨⟨⟨A0, A1, A2, A3, A4, A5, A6, A7, A8, A9, A10, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_C c Set.univ (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [A0 A1 A2 A3 A4 A5 A6 A7 A8 A9 A10 HS Hg]
      · isplitl [A0 A1 A2 A3 A4 A5 A6 A7 A8 A9 A10 HS]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idleAt1_7 t (fun h => h1 ((hcond1_1 t).mp h))) (noFlush1_7 t (fun h => h1 ((hcond1_1 t).mp h)))]
      iintro ⟨⟨⟨A0, A1, A2, A3, A4, A5, A6, A7, A8, A9, A10, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_B c Set.univ (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [A0 A1 A2 A3 A4 A5 A6 A7 A8 A9 A10 HS Hg]
      · isplitl [A0 A1 A2 A3 A4 A5 A6 A7 A8 A9 A10 HS]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  unfold scoped1
  iintro ⟨⟨A0, A1, A2, A3, A4, A5, A6, A7, A8, A9, A10, HS⟩, Hg⟩
  isplitl [A0 A1 A2 A3 A4 A5 A6 A7 A8 A9 A10 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexists _; iexact HS
  iexact Hg

end Region1

end Cert.Kernel.Hand

end
-- ==== Proof.KRun.lean ====
import proofs.«409877_j67551245631640_3_alg».proof.Proof.Gen.Kernel.Launch
import proofs.«409877_j67551245631640_3_alg».proof.Proof.Gen.Kernel.Skeleton
import proofs.«409877_j67551245631640_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409877_j67551245631640_3_alg».proof.Proof.KRegion0
import proofs.«409877_j67551245631640_3_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: host operations, the first call, host operations, the second call, host operations

## The buffer contents at each boundary, a fold through the program -/

/-- Core `c`'s buffers at launch. -/
abbrev W0 : Dev nD → Valuation τ sig (Elt F) := fun c b => (s₀ m ρ).mem ((c : Dev nD), b)
/-- After the first stretch of host operations (degrees, the first aggregation). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second aggregation, over the first layer's output). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the pooling tail (combine the halves, scale, classify), -/
abbrev W5 : Dev nD → Valuation τ sig (Elt F) := fun c => StableHlo.after hostOps2 (W4 m ρ c)
/-- and after the log-softmax: the program's end. -/
abbrev W6 : Dev nD → Valuation τ sig (Elt F) := fun c => StableHlo.after hostOps2_1 (W5 m ρ c)

/-! ### No host operation and no call writes an argument -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_forall_not_mem (b := Proc.devRef .tc main_arg4) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_forall_not_mem (b := Proc.devRef .tc main_arg5) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_forall_not_mem (b := Proc.devRef .tc main_arg6) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := StableHlo.after_of_forall_not_mem (b := Proc.devRef .tc main_arg7) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg7) := (W4_arr m ρ c 5).trans (((dat1 (V3 m ρ) c).arrAt_in 5 rfl _).trans (A_eq1 (V3 m ρ) c 5))
    _ = W2 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := StableHlo.after_of_forall_not_mem (b := Proc.devRef .tc main_arg8) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := StableHlo.after_of_forall_not_mem (b := Proc.devRef .tc main_arg9) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := StableHlo.after_of_forall_not_mem (b := Proc.devRef .tc main_arg10) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg10) := StableHlo.after_of_forall_not_mem (b := Proc.devRef .tc main_arg10) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg10) := rfl

/-! ## The proof data family and the thread state -/

abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps2_1_fresh' : (hostOps2_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- The first pallas_call over the thread state: its arrays split out of the unscoped buffers at entry and put
    back at what the pipeline leaves; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: its arrays split out of the unscoped buffers at entry and put
    back at what the pipeline leaves; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's six segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .host (hseg hostOps2_1 hostOps2_1_sub hostOps2_1_fresh' (W5 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show (iprop(StableHlo.held (c : Thread nD τ) (Pipeline.ucRefs τ sig) (W6 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c)⟩) (run_all m ρ)

end Cert.Kernel.Hand

end
-- ==== Proof.KiRegion0.lean ====
import proofs.«409877_j67551245631640_3_alg».proof.Proof.Gen.KernelIdeal.Launch
import proofs.«409877_j67551245631640_3_alg».proof.Proof.Gen.KernelIdeal.Skeleton
import proofs.«409877_j67551245631640_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: one dense layer per block of 5000 nodes

At each of the ten grid points the body reads the point's block of the summed neighbour features, of the node
features and of the inverse degrees, the two weight matrices and the bias row, and stores
`max (0, (agg · dinv) W_l + x W_r + b)` over the whole output block. Nothing is carried from one point to the
next, so what the output's staging buffer holds after the body is one function of the six input blocks. -/

section Region0
-- the TensorCore's buffer contents when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every point its current staging buffer holds the window's block of the array, whether the
    point fetches it or the block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every point its current staging buffer holds the window's block of the array, whether the
    point fetches it or the block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: at every point its current staging buffer holds the window's block of the array, whether the
    point fetches it or the block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: at every point its current staging buffer holds the window's block of the array, whether the
    point fetches it or the block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: at every point its current staging buffer holds the window's block of the array, whether the
    point fetches it or the block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: at every point its current staging buffer holds the window's block of the array, whether the
    point fetches it or the block index has not moved since the fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 × 128 block, the one rectangle the body stores through. -/
abbrev r0_out : Rect S5000x128 := Rect.unit (s := S5000x128) ![0, 0] S5000x128.size inb_S5000x128_S5000x128_0_0
abbrev r0_col : Rect S5000x1 := Rect.unit (s := S5000x1) ![0, 0] S5000x1.size inb_S5000x1_S5000x1_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- The output block after the body, from the six input blocks: the layer's value, stored whole. -/
def out0_6 (x0 : Vec F S5000x128 .f32) (x1 : Vec F S5000x128 .f32) (x2 : Vec F S5000x1 .f32) (x3 : Vec F S128x128 .f32)
    (x4 : Vec F S128x128 .f32) (x5 : Vec F S1x128 .f32) : Vec F S5000x128 .f32 :=
  View.canon [⟨r0_out, k0_pay1 (View.ld x0 r0_out) (View.ld x2 r0_col) (View.ld x1 r0_out) (View.ld x3 r0_w) (View.ld x4 r0_w) (View.ld x5 r0_b)⟩]

/-- The one store covers the block. -/
theorem cover0_6 (p0 : Vec F S5000x128 .f32) (y : S5000x128.Idx) :
    ∃ pc ∈ ([⟨r0_out, p0⟩] : List (View.Piece (Elt F) S5000x128 .f32)), y ∈ pc.1.set :=
  View.cover_of_tiled [⟨r0_out, p0⟩] S5000x128.size (by rfl) y

set_option maxHeartbeats 1000000 in
/-- The body on whole staging memrefs: the six inputs are read and left as they were, the output's buffer ends at
    `out0_6` of them whatever it held. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S5000x128 .f32) (harg7 : arg7.IsWhole)
    (x0 : Vec F S5000x128 .f32) (x1 : Vec F S5000x128 .f32) (x2 : Vec F S5000x1 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__linear_relu_kernel i arg1 harg1 arg2 harg2 arg3 harg3 arg4 harg4 arg5 harg5 arg6 harg6 arg7 harg7) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of the first call on core `c`: the arrays as the call finds them; after the body each input's
    buffer still at its block and the output's at `out0_6` of the input blocks; between points only the scoped rest
    and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: each input's memref holds its block, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiRegion1.lean ====
import proofs.«409877_j67551245631640_3_alg».proof.Proof.Gen.KernelIdeal.Launch
import proofs.«409877_j67551245631640_3_alg».proof.Proof.Gen.KernelIdeal.Skeleton
import proofs.«409877_j67551245631640_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: the second dense layer, pooled per graph as it goes

The grid is 2 × 25: core-half `p` of the nodes, block `i` of 1000 nodes within it. At each point the body forms the
layer's value on the block, multiplies its transpose-side with the block's one-hot graph indicator (a 256 × 128
contribution), and adds that into a scratch accumulator which it zeroes at `i = 0`; at `i = 24` it copies the
accumulator into the output block `p`. So the scratch is carried from point to point and the output window is
idle except at the last block of each half. -/

section Region1
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the grid -/

/-- "this is the first block of the half": the body's first `scf.if`. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)
/-- "this is the last block of the half": the body's second `scf.if`. -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-- The inputs are never idle; the output is idle exactly off the last block of a half, and not written back there. -/
theorem liveAt1_in (w : Fin cfg1.W) (hw : w.val < 7) : ∀ i, cfg1.idle w i = false := by
  intro i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl
theorem idleAt1_7 : ∀ t : Fin cfg1.N, ¬cond1_1 (grid1.coords t) → cfg1.idle 7 (grid1.coords t) = true := by decide +kernel
theorem liveAt1_7 : ∀ t : Fin cfg1.N, cond1_1 (grid1.coords t) → cfg1.idle 7 (grid1.coords t) = false := by decide +kernel
theorem noFlush1_7 : ∀ t : Fin cfg1.N, ¬cond1_1 (grid1.coords t) → (cfg1.win 7).flush t = false := by decide +kernel

/-! ## The body's rectangles and what it computes -/

abbrev r1_in : Rect S1000x128 := Rect.unit (s := S1000x128) ![0, 0] S1000x128.size inb_S1000x128_S1000x128_0_0
abbrev r1_col : Rect S1000x1 := Rect.unit (s := S1000x1) ![0, 0] S1000x1.size inb_S1000x1_S1000x1_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_acc : Rect S256x128 := Rect.unit (s := S256x128) ![0, 0] S256x128.size inb_S256x128_S256x128_0_0
abbrev r1_out : Rect S1x256x128 := Rect.unit (s := S1x256x128) ![0, 0, 0] S1x256x128.size inb_S1x256x128_S1x256x128_0_0_0

/-- The scratch operand: a whole scoped buffer of the kernel's own. -/
abbrev scM1 : Memref sig .tc .vmem S256x128 .f32 := Memref.whole cc1_scratch0

/-- One block's contribution to the pooled sums: (one-hot of the block's graph ids)ᵀ · (the layer's value on the block). -/
def contrib1 (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) : Vec F S256x128 .f32 :=
  k1_pay4 (View.ld x0 r1_in) (View.ld x2 r1_col) (View.ld x1 r1_in) (View.ld x4 r1_w) (View.ld x5 r1_w) (View.ld x6 r1_b) (View.ld x3 r1_col)

/-- The accumulator after a point that is not the first of its half: the contribution added to what it held. -/
def accNext (prev : Vec F S256x128 .f32) (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) : Vec F S256x128 .f32 :=
  View.canon [⟨r1_acc, k1_pay1 (contrib1 x0 x1 x2 x3 x4 x5 x6) (View.ld prev r1_acc)⟩]

/-- The accumulator after the first point of a half: zeroed, then the contribution added. -/
def accFirst (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) : Vec F S256x128 .f32 :=
  View.canon [⟨r1_acc, k1_pay1 (contrib1 x0 x1 x2 x3 x4 x5 x6) (View.ld (View.canon [⟨r1_acc, k1_pay3 (F := F)⟩]) r1_acc)⟩, ⟨r1_acc, k1_pay3 (F := F)⟩]

/-- The output block the last point of a half stores: the accumulator, as a 1 × 256 × 128 block. -/
def outOf (acc : Vec F S256x128 .f32) : Vec F S1x256x128 .f32 :=
  View.canon [⟨r1_out, k1_pay2 (View.ld acc r1_acc)⟩]

theorem cover1_acc (p0 : Vec F S256x128 .f32) (y : S256x128.Idx) :
    ∃ pc ∈ ([⟨r1_acc, p0⟩] : List (View.Piece (Elt F) S256x128 .f32)), y ∈ pc.1.set :=
  View.cover_of_tiled [⟨r1_acc, p0⟩] S256x128.size (by rfl) y
theorem cover1_acc2 (p0 p1 : Vec F S256x128 .f32) (y : S256x128.Idx) :
    ∃ pc ∈ ([⟨r1_acc, p0⟩, ⟨r1_acc, p1⟩] : List (View.Piece (Elt F) S256x128 .f32)), y ∈ pc.1.set := by
  obtain ⟨pc, hm, hy⟩ := cover1_acc p0 y
  exact ⟨pc, List.mem_cons.mpr (Or.inl (List.mem_singleton.mp hm)), hy⟩
theorem cover1_out (p0 : Vec F S1x256x128 .f32) (y : S1x256x128.Idx) :
    ∃ pc ∈ ([⟨r1_out, p0⟩] : List (View.Piece (Elt F) S1x256x128 .f32)), y ∈ pc.1.set :=
  View.cover_of_tiled [⟨r1_out, p0⟩] S1x256x128.size (by rfl) y

/-! ## The body's triple, case by case -/

set_option maxHeartbeats 2000000 in
/-- First block of a half (and not the last): the scratch may hold anything, and ends at `accFirst`; the output's
    buffer is handed back untouched. -/
theorem sound_kernel1_A (c : Dev nD) (E : Set ℕ) (i : grid1.Coords)
    (arg2 : Memref sig .tc .vmem S1000x128 .f32) (harg2 : arg2.IsWhole) (arg3 : Memref sig .tc .vmem S1000x128 .f32) (harg3 : arg3.IsWhole)
    (arg4 : Memref sig .tc .vmem S1000x1 .f32) (harg4 : arg4.IsWhole) (arg5 : Memref sig .tc .vmem S1000x1 .i32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1x256x128 .f32) (harg9 : arg9.IsWhole)
    (arg10 : Memref sig .tc .vmem S256x128 .f32) (harg10 : arg10.IsWhole)
    (hc0 : cond1_0 i) (hc1 : ¬cond1_1 i)
    (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) (xi : Vec F S1x256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare xi
            ∗ owns (c : Thread nD τ) arg10 fullShare (accFirst x0 x1 x2 x3 x4 x5 x6)) -∗ K ⟨⟩))
      ⊢ wp frame (wpE (defs₀ (F := F)) Variants.none c none) E (cc1__sage2_pool_kernel i arg2 harg2 arg3 harg3 arg4 harg4 arg5 harg5 arg6 harg6 arg7 harg7 arg8 harg8 arg9 harg9 arg10 harg10) K := by
  simp only [cc1__sage2_pool_kernel_eq_skeleton]; unfold cc1__sage2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%ds, %fs, -, HS⟩, Hk⟩
  subst hf0; subst hf1; subst hf2; subst hf3; subst hf4; subst hf5; subst hf6; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact HS
  ipureintro
  sl_unfold_words
  rw [View.readCov_eq_canon_ld _ _ _ (cover1_acc _)]
  exact View.read_writes_eq_canon _ _ _ (cover1_acc2 _ _)

set_option maxHeartbeats 2000000 in
/-- A block in the middle of a half: the scratch holds `xs` and ends at `accNext xs`; the output's buffer is handed
    back untouched. -/
theorem sound_kernel1_B (c : Dev nD) (E : Set ℕ) (i : grid1.Coords)
    (arg2 : Memref sig .tc .vmem S1000x128 .f32) (harg2 : arg2.IsWhole) (arg3 : Memref sig .tc .vmem S1000x128 .f32) (harg3 : arg3.IsWhole)
    (arg4 : Memref sig .tc .vmem S1000x1 .f32) (harg4 : arg4.IsWhole) (arg5 : Memref sig .tc .vmem S1000x1 .i32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1x256x128 .f32) (harg9 : arg9.IsWhole)
    (arg10 : Memref sig .tc .vmem S256x128 .f32) (harg10 : arg10.IsWhole)
    (hc0 : ¬cond1_0 i) (hc1 : ¬cond1_1 i)
    (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) (xs : Vec F S256x128 .f32) (xi : Vec F S1x256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare xi
            ∗ owns (c : Thread nD τ) arg10 fullShare (accNext xs x0 x1 x2 x3 x4 x5 x6)) -∗ K ⟨⟩))
      ⊢ wp frame (wpE (defs₀ (F := F)) Variants.none c none) E (cc1__sage2_pool_kernel i arg2 harg2 arg3 harg3 arg4 harg4 arg5 harg5 arg6 harg6 arg7 harg7 arg8 harg8 arg9 harg9 arg10 harg10) K := by
  simp only [cc1__sage2_pool_kernel_eq_skeleton]; unfold cc1__sage2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%fs, %hfs, HS⟩, Hk⟩
  subst hf0; subst hf1; subst hf2; subst hf3; subst hf4; subst hf5; subst hf6; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  iexists _; isplitr
  swap; · iexact HS
  ipureintro
  sl_unfold_words
  exact View.read_writes_eq_canon _ _ _ (cover1_acc _)

set_option maxHeartbeats 2000000 in
/-- Last block of a half (and not the first): the scratch holds `xs` and ends at `accNext xs`, which the output's
    buffer, whatever it held, receives as a block. -/
theorem sound_kernel1_C (c : Dev nD) (E : Set ℕ) (i : grid1.Coords)
    (arg2 : Memref sig .tc .vmem S1000x128 .f32) (harg2 : arg2.IsWhole) (arg3 : Memref sig .tc .vmem S1000x128 .f32) (harg3 : arg3.IsWhole)
    (arg4 : Memref sig .tc .vmem S1000x1 .f32) (harg4 : arg4.IsWhole) (arg5 : Memref sig .tc .vmem S1000x1 .i32) (harg5 : arg5.IsWhole)
    (arg6 : Memref sig .tc .vmem S128x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1x256x128 .f32) (harg9 : arg9.IsWhole)
    (arg10 : Memref sig .tc .vmem S256x128 .f32) (harg10 : arg10.IsWhole)
    (hc0 : ¬cond1_0 i) (hc1 : cond1_1 i)
    (x0 : Vec F S1000x128 .f32) (x1 : Vec F S1000x128 .f32) (x2 : Vec F S1000x1 .f32) (x3 : Vec F S1000x1 .i32)
    (x4 : Vec F S128x128 .f32) (x5 : Vec F S128x128 .f32) (x6 : Vec F S1x128 .f32) (xs : Vec F S256x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outOf (accNext xs x0 x1 x2 x3 x4 x5 x6))
            ∗ owns (c : Thread nD τ) arg10 fullShare (accNext xs x0 x1 x2 x3 x4 x5 x6)) -∗ K ⟨⟩))
      ⊢ wp frame (wpE (defs₀ (F := F)) Variants.none c none) E (cc1__sage2_pool_kernel i arg2 harg2 arg3 harg3 arg4 harg4 arg5 harg5 arg6 harg6 arg7 harg7 arg8 harg8 arg9 harg9 arg10 harg10) K := by
  simp only [cc1__sage2_pool_kernel_eq_skeleton]; unfold cc1__sage2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    sl_unfold_words
    rw [View.readCov_eq_canon_ld _ _ _ (cover1_acc _)]
    exact View.read_writes_eq_canon _ _ _ (cover1_out _)
  iexists _; isplitr
  swap; · iexact HS
  ipureintro
  sl_unfold_words
  exact View.read_writes_eq_canon _ _ _ (cover1_acc _)

/-! ## What the scratch holds after each point -/

/-- The accumulator after the body at position `n`: restarted at the first block of each half, else the previous
    point's with this block's contribution added. -/
def accAt (c : Dev nD) : (n : ℕ) → n < cfg1.N → Vec F S256x128 .f32
  | 0, hn => accFirst (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if (n + 1) % 25 = 0 then accFirst (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else accNext (accAt c n (Nat.lt_of_succ_lt hn)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)

theorem accAt_first (c : Dev nD) (t : Fin cfg1.N) (h0 : t.val % 25 = 0) :
    accAt V c t.val t.isLt = accFirst (iblk1 V c 0 t) (iblk1 V c 1 t) (iblk1 V c 2 t) (iblk1 V c 3 t) (iblk1 V c 4 t) (iblk1 V c 5 t) (iblk1 V c 6 t) := by
  obtain ⟨n, hn⟩ := t
  cases n with
  | zero => rfl
  | succ n => exact if_pos h0

theorem accAt_next (c : Dev nD) (t : Fin cfg1.N) (h0 : ¬t.val % 25 = 0) :
    accAt V c t.val t.isLt = accNext (accAt V c (t.val - 1) (Nat.lt_of_le_of_lt (Nat.sub_le _ _) t.isLt)) (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact absurd (Nat.zero_mod _) h0
  | succ n => exact if_neg h0

/-- The scoped buffers the second call's windows do not stage — the first call's staging buffers, each at some
    contents — beside the scratch in state `S`. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ S)

/-- The invariant before position `n`: before the first point the scoped rest and the generator register, the
    scratch at anything; afterwards the scratch at what the point before left. -/
def PhiS1 (c : Dev nD) : (n : ℕ) → n ≤ cfg1.N → sProp 𝕄
  | 0, _ => Pipeline.ΦA spec1 c
  | n + 1, hn => iprop(scoped1 c (owns (c : Thread nD τ) scM1 fullShare (accAt V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 c (owns (c : Thread nD τ) scM1 fullShare (accAt V c n hn)) ∗ (∃ r, prngReg c r)) := rfl
theorem PhiS1_pos (c : Dev nD) (n : ℕ) (h : n ≤ cfg1.N) (hz : n ≠ 0) :
    PhiS1 V c n h = iprop(scoped1 c (owns (c : Thread nD τ) scM1 fullShare (accAt V c (n - 1) (by omega))) ∗ (∃ r, prngReg c r)) := by
  cases n with
  | zero => exact absurd rfl hz
  | succ n => rfl

/-- The class's invariant with the scratch spelled as a memref owned at some contents. -/
theorem PhiA1_eq (c : Dev nD) :
    (Pipeline.ΦA spec1 c : sProp 𝕄) = iprop(scoped1 c iprop(∃ d, owns (c : Thread nD τ) scM1 fullShare d) ∗ (∃ r, prngReg c r)) := by
  unfold Pipeline.ΦA scoped1; rw [scopedRest1_eq]; simp only [scM1, owns_whole]; try rfl

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outOf (accAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outOf (accAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: which of the three cases the point is in is decided by its position in the half. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  unfold scoped1
  have hN : t.val < 50 := lt_of_lt_of_eq t.isLt (show cfg1.N = 50 from N_1)
  rw [show (dat1 V c).leavesExact 0 t = owns (c : Thread nD τ) (st1_0 t) fullShare ((dat1 V c).after 0 t) from by
    unfold Dat.leavesExact; rw [liveAt1_in 0 (by decide)], after1_0]
  rw [show (dat1 V c).leavesExact 1 t = owns (c : Thread nD τ) (st1_1 t) fullShare ((dat1 V c).after 1 t) from by
    unfold Dat.leavesExact; rw [liveAt1_in 1 (by decide)], after1_1]
  rw [show (dat1 V c).leavesExact 2 t = owns (c : Thread nD τ) (st1_2 t) fullShare ((dat1 V c).after 2 t) from by
    unfold Dat.leavesExact; rw [liveAt1_in 2 (by decide)], after1_2]
  rw [show (dat1 V c).leavesExact 3 t = owns (c : Thread nD τ) (st1_3 t) fullShare ((dat1 V c).after 3 t) from by
    unfold Dat.leavesExact; rw [liveAt1_in 3 (by decide)], after1_3]
  rw [show (dat1 V c).leavesExact 4 t = owns (c : Thread nD τ) (st1_4 t) fullShare ((dat1 V c).after 4 t) from by
    unfold Dat.leavesExact; rw [liveAt1_in 4 (by decide)], after1_4]
  rw [show (dat1 V c).leavesExact 5 t = owns (c : Thread nD τ) (st1_5 t) fullShare ((dat1 V c).after 5 t) from by
    unfold Dat.leavesExact; rw [liveAt1_in 5 (by decide)], after1_5]
  rw [show (dat1 V c).leavesExact 6 t = owns (c : Thread nD τ) (st1_6 t) fullShare ((dat1 V c).after 6 t) from by
    unfold Dat.leavesExact; rw [liveAt1_in 6 (by decide)], after1_6]
  by_cases h0 : t.val % 25 = 0
  · by_cases h1 : t.val % 25 = 24
    · exfalso; omega
    · rw [Dat.leavesExact_idle (dat1 V c) 7 t (idleAt1_7 t (fun h => h1 ((hcond1_1 t).mp h))) (noFlush1_7 t (fun h => h1 ((hcond1_1 t).mp h)))]
      rw [accAt_first V c t h0]
      by_cases hz : t.val = 0
      · rw [PhiS1_castSucc V c t, PhiS1_zero V c _ _ hz, PhiA1_eq]; unfold scoped1
        iintro ⟨⟨⟨A0, A1, A2, A3, A4, A5, A6, A7, A8, A9, A10, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (sound_kernel1_A c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, HS⟩
        isplitl [A0 A1 A2 A3 A4 A5 A6 A7 A8 A9 A10 HS Hg]
        · isplitl [A0 A1 A2 A3 A4 A5 A6 A7 A8 A9 A10 HS]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS1_castSucc V c t, PhiS1_pos V c _ _ hz]; unfold scoped1
        iintro ⟨⟨⟨A0, A1, A2, A3, A4, A5, A6, A7, A8, A9, A10, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (sound_kernel1_A c Set.univ (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, HS⟩
        isplitl [A0 A1 A2 A3 A4 A5 A6 A7 A8 A9 A10 HS Hg]
        · isplitl [A0 A1 A2 A3 A4 A5 A6 A7 A8 A9 A10 HS]
          · isplitl [A0]; · iexact A0
            isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            isplitl [A10]; · iexact A10
            iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · have hz : t.val ≠ 0 := fun e => h0 (by rw [e])
    rw [PhiS1_castSucc V c t, PhiS1_pos V c _ _ hz, accAt_next V c t h0]; unfold scoped1
    by_cases h1 : t.val % 25 = 24
    · rw [show (dat1 V c).leavesExact 7 t = owns (c : Thread nD τ) (st1_7 t) fullShare ((dat1 V c).after 7 t) from by
        unfold Dat.leavesExact; rw [liveAt1_7 t ((hcond1_1 t).mpr h1)], after1_7, accAt_next V c t h0]
      iintro ⟨⟨⟨A0, A1, A2, A3, A4, A5, A6, A7, A8, A9, A10, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_C c Set.univ (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [A0 A1 A2 A3 A4 A5 A6 A7 A8 A9 A10 HS Hg]
      · isplitl [A0 A1 A2 A3 A4 A5 A6 A7 A8 A9 A10 HS]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idleAt1_7 t (fun h => h1 ((hcond1_1 t).mp h))) (noFlush1_7 t (fun h => h1 ((hcond1_1 t).mp h)))]
      iintro ⟨⟨⟨A0, A1, A2, A3, A4, A5, A6, A7, A8, A9, A10, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_B c Set.univ (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [A0 A1 A2 A3 A4 A5 A6 A7 A8 A9 A10 HS Hg]
      · isplitl [A0 A1 A2 A3 A4 A5 A6 A7 A8 A9 A10 HS]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  unfold scoped1
  iintro ⟨⟨A0, A1, A2, A3, A4, A5, A6, A7, A8, A9, A10, HS⟩, Hg⟩
  isplitl [A0 A1 A2 A3 A4 A5 A6 A7 A8 A9 A10 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexists _; iexact HS
  iexact Hg

end Region1

end Cert.KernelIdeal.Hand

end
-- ==== Proof.KiRun.lean ====
import proofs.«409877_j67551245631640_3_alg».proof.Proof.Gen.KernelIdeal.Launch
import proofs.«409877_j67551245631640_3_alg».proof.Proof.Gen.KernelIdeal.Skeleton
import proofs.«409877_j67551245631640_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«409877_j67551245631640_3_alg».proof.Proof.KiRegion0
import proofs.«409877_j67551245631640_3_alg».proof.Proof.KiRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: host operations, the first call, host operations, the second call, host operations

## The buffer contents at each boundary, a fold through the program -/

/-- Core `c`'s buffers at launch. -/
abbrev W0 : Dev nD → Valuation τ sig (Elt F) := fun c b => (s₀ m ρ).mem ((c : Dev nD), b)
/-- After the first stretch of host operations (degrees, the first aggregation). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the second aggregation, over the first layer's output). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the pooling tail (combine the halves, scale, classify), -/
abbrev W5 : Dev nD → Valuation τ sig (Elt F) := fun c => StableHlo.after hostOps2 (W4 m ρ c)
/-- and after the log-softmax: the program's end. -/
abbrev W6 : Dev nD → Valuation τ sig (Elt F) := fun c => StableHlo.after hostOps2_1 (W5 m ρ c)

/-! ### No host operation and no call writes an argument -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := StableHlo.after_of_forall_not_mem (b := Proc.devRef .tc main_arg3) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := StableHlo.after_of_forall_not_mem (b := Proc.devRef .tc main_arg4) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := StableHlo.after_of_forall_not_mem (b := Proc.devRef .tc main_arg5) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := StableHlo.after_of_forall_not_mem (b := Proc.devRef .tc main_arg6) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := StableHlo.after_of_forall_not_mem (b := Proc.devRef .tc main_arg7) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg7) := (W4_arr m ρ c 5).trans (((dat1 (V3 m ρ) c).arrAt_in 5 rfl _).trans (A_eq1 (V3 m ρ) c 5))
    _ = W2 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := StableHlo.after_of_forall_not_mem (b := Proc.devRef .tc main_arg8) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := StableHlo.after_of_forall_not_mem (b := Proc.devRef .tc main_arg9) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := StableHlo.after_of_forall_not_mem (b := Proc.devRef .tc main_arg10) _ _ (List.forall_iff_forall_mem.mp (by
          simp only [hostOps2_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg10) := StableHlo.after_of_forall_not_mem (b := Proc.devRef .tc main_arg10) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg10) := rfl

/-! ## The proof data family and the thread state -/

abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps2_1_fresh' : (hostOps2_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- The first pallas_call over the thread state: its arrays split out of the unscoped buffers at entry and put
    back at what the pipeline leaves; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: its arrays split out of the unscoped buffers at entry and put
    back at what the pipeline leaves; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's six segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .host (hseg hostOps2_1 hostOps2_1_sub hostOps2_1_fresh' (W5 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show (iprop(StableHlo.held (c : Thread nD τ) (Pipeline.ucRefs τ sig) (W6 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c)⟩) (run_all m ρ)

end Cert.KernelIdeal.Hand

end
-- ==== Proof.KiSpec.lean ====
import proofs.«409877_j67551245631640_3_alg».proof.KernelIdeal
import Idealize.ShloMosaic.Lib.ValueIdx
import Idealize.ShloMosaic.PureOps.Ideal

noncomputable section

namespace Cert.KernelIdeal.Hand

open Cert.KernelIdeal Idealize.ShloMosaic

/-! # The two calls' values, as functions of whole arrays over the extended reals -/

/-- Element (n, f) of one dense layer: `max(Σ_k (agg n k · dinv n) · Wl k f + Σ_k x n k · Wr k f + b f, 0)`. -/
def layerAt (agg x : Vec Ideal S50000x128 .f32) (dinv : Vec Ideal S50000x1 .f32) (wl wr : Vec Ideal S128x128 .f32) (b : Vec Ideal S1x128 .f32)
    (n : Fin 50000) (f : Fin 128) : EReal :=
  max (((∑ k : Fin 128, (agg (ValueIdx.ix2 n k) * dinv (ValueIdx.ix2 n (0 : Fin 1))) * wl (ValueIdx.ix2 k f))
      + ∑ k : Fin 128, x (ValueIdx.ix2 n k) * wr (ValueIdx.ix2 k f)) + b (ValueIdx.ix2 (0 : Fin 1) f)) (Ideal.ofBits .f32 0x00000000#32)

/-- The node that row `r` of block `i` of half `p` of the second call's grid holds. -/
def nodeOf (p : Fin 2) (i : Fin 25) (r : Fin 1000) : Fin 50000 :=
  ⟨(p.val * 25 + i.val) * 1000 + r.val, by have := p.isLt; have := i.isLt; have := r.isLt; omega⟩

/-- The one-hot indicator the second call forms from a node's graph id. -/
def ind (b : BitVec 32) (g : Fin 256) : EReal := if b = BitVec.ofNat 32 g.val then 1 else 0

/-- Element (p, g, f) of the second call's output: over the 25 blocks of half `p` and the 1000 nodes of each, the
    second layer's value at the node, kept where the node's graph id is `g`. -/
def poolAt (agg h : Vec Ideal S50000x128 .f32) (dinv : Vec Ideal S50000x1 .f32) (batch : S50000x1.Idx → BitVec 32)
    (wl wr : Vec Ideal S128x128 .f32) (b : Vec Ideal S1x128 .f32) (p : Fin 2) (g : Fin 256) (f : Fin 128) : EReal :=
  ∑ i : Fin 25, ∑ r : Fin 1000, ind (batch (ValueIdx.ix2 (nodeOf p i r) (0 : Fin 1))) g * layerAt agg h dinv wl wr b (nodeOf p i r) f

end Cert.KernelIdeal.Hand

end
-- ==== Proof.KiValue0.lean ====
import proofs.«409877_j67551245631640_3_alg».proof.Proof.KiRegion0
import proofs.«409877_j67551245631640_3_alg».proof.Proof.KiSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # What the first call leaves in its output array

Over the extended reals the body's block at a grid point is, entry by entry, one dense layer of the block's 5000
nodes: row `p` of the block is node `5000 t + p`, the weights and the bias are read whole. So every block the
pipeline writes back is the block of ONE function of the whole arrays, `layerAt`, and since the ten blocks of 5000
rows tile the 50000 rows the output array ends holding that function. -/

/-! ## The body's arithmetic at one entry of the block -/

/-- The inverse-degree column `[5000, 1]` spread along the 128 features reads, at `(p, q)`, the column at row `p`. -/
theorem bcastCol5000_apply (v : Vec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else q.val; rw [if_pos rfl]

/-- The left operand's index of the block product keeps the output's row … -/
theorem dot5000_lhs_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs along the contraction on its second axis; -/
theorem dot5000_lhs_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
/-- the right operand's runs along the contraction on its first axis … -/
theorem dot5000_rhs_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
/-- … and keeps the output's column. -/
theorem dot5000_rhs_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a weight matrix into the zero accumulator, at row `p` and column `q`: the row's 128 entries
    against the matrix's column `q`. -/
theorem matmul5000_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot5000_lhs_0 _ _
    | ⟨1, _⟩ => exact (dot5000_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot5000_rhs_0 _ _).trans hk
    | ⟨1, _⟩ => exact dot5000_rhs_1 _ _)
  rw [el, er]

/-- The body's value at row `p`, column `q` of its block, from the six blocks it loads: the changes of float format
    are the identity on extended reals, each product into the zero accumulator is the plain sum, the column of
    inverse degrees is read at the row and the bias row at the column. -/
theorem k0_pay1_apply (v0 : Vec Ideal S5000x128 .f32) (v2 : Vec Ideal S5000x1 .f32) (v7 : Vec Ideal S5000x128 .f32)
    (v9 v11 : Vec Ideal S128x128 .f32) (v16 : Vec Ideal S1x128 .f32) (p : Fin 5000) (q : Fin 128) :
    k0_pay1 (F := Ideal) v0 v2 v7 v9 v11 v16 (ix2 p q)
      = max (((∑ k : Fin 128, (v0 (ix2 p k) * v2 (ix2 p (0 : Fin 1))) * v9 (ix2 k q)) + ∑ k : Fin 128, v7 (ix2 p k) * v11 (ix2 k q))
          + v16 (ix2 (0 : Fin 1) q)) (Ideal.ofBits .f32 0x00000000#32) := by
  unfold k0_pay1
  simp only [shapeCast_self]
  refine congrArg₂ max (congrArg₂ (· + ·) (congrArg₂ (· + ·) ?_ ?_) ?_) rfl
  · refine (matmul5000_apply _ _ p q).trans (Finset.sum_congr rfl fun k _ => ?_)
    show (v0 (ix2 p k) * broadcastTo S5000x128 v2 broadcasts_S5000x1_S5000x128 (ix2 p k)) * v9 (ix2 k q) = _
    rw [bcastCol5000_apply]
  · exact matmul5000_apply _ _ p q
  · exact broadcastTo_1b_ab_apply _ _ p q

/-- The same entry as the layer of whole arrays at node `n`, whenever the six blocks agree with the arrays where that
    entry reads them: row `p` of the two feature blocks and of the inverse-degree block with node `n`'s rows, the
    weights' column `q` and the bias at `q` with the arrays' own. -/
theorem k0_pay1_layer (agg x : Vec Ideal S50000x128 .f32) (dinv : Vec Ideal S50000x1 .f32) (wl wr : Vec Ideal S128x128 .f32)
    (b : Vec Ideal S1x128 .f32) (x0 x1 : Vec Ideal S5000x128 .f32) (x2 : Vec Ideal S5000x1 .f32) (x3 x4 : Vec Ideal S128x128 .f32)
    (x5 : Vec Ideal S1x128 .f32) (n : Fin 50000) (p : Fin 5000) (q : Fin 128)
    (h0 : ∀ k : Fin 128, x0 (ix2 p k) = agg (ix2 n k)) (h1 : ∀ k : Fin 128, x1 (ix2 p k) = x (ix2 n k))
    (h2 : x2 (ix2 p (0 : Fin 1)) = dinv (ix2 n (0 : Fin 1)))
    (h3 : ∀ k : Fin 128, x3 (ix2 k q) = wl (ix2 k q)) (h4 : ∀ k : Fin 128, x4 (ix2 k q) = wr (ix2 k q))
    (h5 : x5 (ix2 (0 : Fin 1) q) = b (ix2 (0 : Fin 1) q)) :
    k0_pay1 (F := Ideal) x0 x2 x1 x3 x4 x5 (ix2 p q) = layerAt agg x dinv wl wr b n q := by
  rw [k0_pay1_apply]
  unfold layerAt
  rw [h2, h5]
  refine congrArg₂ max (congrArg₂ (· + ·) (congrArg₂ (· + ·) (Finset.sum_congr rfl fun k _ => ?_) (Finset.sum_congr rfl fun k _ => ?_)) rfl) rfl
  · rw [h0 k, h3 k]
  · rw [h1 k, h4 k]

/-! ## Each block as rows of its array -/

section Array0
-- the TensorCore's buffer contents when the call is entered, at the extended reals
variable (V : (c : Dev nD) → (b : Ref sig .tc) → Buf (Elt Ideal) ((c : Thread nD τ).loc b))

theorem zero_off0 : (![0, 0] : Fin 2 → Nat) = fun _ => 0 := funext fun a => by fin_cases a <;> rfl

/-- The printed index maps over the ten grid points: the three row-blocked inputs and the output sit at block row `t`,
    block column 0; the weights and the bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the summed-neighbour block at point `t` is row `5000 t + p` of the array. -/
theorem iblk0_0_apply (c : Dev nD) (t : Fin cfg0.N) (p : Fin 5000) (k : Fin 128) (n : Fin 50000) (hn : n.val = t.val * 5000 + p.val) :
    (iblk0 V c 0 t : Vec Ideal S5000x128 .f32) (ix2 p k) = (V c main_v34 : Vec Ideal S50000x128 .f32) (ix2 n k) := by
  obtain ⟨e0, e1, -⟩ := idx_facts0 t
  show (V c main_v34 : Vec Ideal S50000x128 .f32) (((cfg0.win 0).blk t).view.emb (ix2 p k)) = _
  refine congrArg (V c main_v34 : Vec Ideal S50000x128 .f32) (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- Row `p` of the node-feature block at point `t` is row `5000 t + p` of the array. -/
theorem iblk0_1_apply (c : Dev nD) (t : Fin cfg0.N) (p : Fin 5000) (k : Fin 128) (n : Fin 50000) (hn : n.val = t.val * 5000 + p.val) :
    (iblk0 V c 1 t : Vec Ideal S5000x128 .f32) (ix2 p k) = (V c main_arg0 : Vec Ideal S50000x128 .f32) (ix2 n k) := by
  obtain ⟨-, -, e0, e1, -⟩ := idx_facts0 t
  show (V c main_arg0 : Vec Ideal S50000x128 .f32) (((cfg0.win 1).blk t).view.emb (ix2 p k)) = _
  refine congrArg (V c main_arg0 : Vec Ideal S50000x128 .f32) (funext fun a => Fin.ext ?_)
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

/-- Row `p` of the inverse-degree block at point `t` is row `5000 t + p` of the column. -/
theorem iblk0_2_apply (c : Dev nD) (t : Fin cfg0.N) (p : Fin 5000) (n : Fin 50000) (hn : n.val = t.val * 5000 + p.val) :
    (iblk0 V c 2 t : Vec Ideal S5000x1 .f32) (ix2 p (0 : Fin 1)) = (V c main_v12 : Vec Ideal S50000x1 .f32) (ix2 n (0 : Fin 1)) := by
  obtain ⟨-, -, -, -, e0, e1, -⟩ := idx_facts0 t
  show (V c main_v12 : Vec Ideal S50000x1 .f32) (((cfg0.win 2).blk t).view.emb (ix2 p (0 : Fin 1))) = _
  refine congrArg (V c main_v12 : Vec Ideal S50000x1 .f32) (funext fun a => Fin.ext ?_)
  match a with
  | ⟨0, _⟩ => show win0_2.index t (0 : Fin 2) * 5000 + 1 * p.val = n.val; rw [e0, hn]; omega
  | ⟨1, _⟩ => show win0_2.index t (1 : Fin 2) * 1 + 1 * 0 = 0; rw [e1]

/-- The first weight block is the whole matrix at every point. -/
theorem iblk0_3_apply (c : Dev nD) (t : Fin cfg0.N) (k q : Fin 128) :
    (iblk0 V c 3 t : Vec Ideal S128x128 .f32) (ix2 k q) = (V c main_arg3 : Vec Ideal S128x128 .f32) (ix2 k q) := by
  obtain ⟨-, -, -, -, -, -, e0, e1, -⟩ := idx_facts0 t
  show (V c main_arg3 : Vec Ideal S128x128 .f32) (((cfg0.win 3).blk t).view.emb (ix2 k q)) = _
  refine congrArg (V c main_arg3 : Vec Ideal S128x128 .f32) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The second weight block is the whole matrix at every point. -/
theorem iblk0_4_apply (c : Dev nD) (t : Fin cfg0.N) (k q : Fin 128) :
    (iblk0 V c 4 t : Vec Ideal S128x128 .f32) (ix2 k q) = (V c main_arg4 : Vec Ideal S128x128 .f32) (ix2 k q) := by
  obtain ⟨-, -, -, -, -, -, -, -, e0, e1, -⟩ := idx_facts0 t
  show (V c main_arg4 : Vec Ideal S128x128 .f32) (((cfg0.win 4).blk t).view.emb (ix2 k q)) = _
  refine congrArg (V c main_arg4 : Vec Ideal S128x128 .f32) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias block is the whole row at every point. -/
theorem iblk0_5_apply (c : Dev nD) (t : Fin cfg0.N) (q : Fin 128) :
    (iblk0 V c 5 t : Vec Ideal S1x128 .f32) (ix2 (0 : Fin 1) q) = (V c main_v22 : Vec Ideal S1x128 .f32) (ix2 (0 : Fin 1) q) := by
  obtain ⟨-, -, -, -, -, -, -, -, -, -, e0, e1, -⟩ := idx_facts0 t
  show (V c main_v22 : Vec Ideal S1x128 .f32) (((cfg0.win 5).blk t).view.emb (ix2 (0 : Fin 1) q)) = _
  refine congrArg (V c main_v22 : Vec Ideal S1x128 .f32) (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-! ## From the blocks to the array -/

/-- The layer of the arrays as the call finds them, as one function of the output's index. -/
abbrev layer0 (c : Dev nD) : S50000x128.Idx → EReal := fun j =>
  layerAt (V c main_v34) (V c main_arg0) (V c main_v12) (V c main_arg3) (V c main_arg4) (V c main_v22) (j 0) (j 1)

/-- What point `t` writes back is block `t` of the layer: entry `(p, q)` of the body's block is the layer at node
    `5000 t + p`, feature `q`, which is where the output's rectangle at `t` puts it. -/
theorem flushed0_6_eq (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero zero_off0]
  simp only [View.ld_unit_zero (S := S5000x128) zero_off0, View.ld_unit_zero (S := S5000x1) zero_off0,
    View.ld_unit_zero (S := S128x128) zero_off0, View.ld_unit_zero (S := S1x128) zero_off0]
  funext j
  obtain ⟨p, q, rfl⟩ : ∃ (p : Fin 5000) (q : Fin 128), j = ix2 p q := ⟨j 0, j 1, eq_ix2 j⟩
  have ht : t.val < 10 := lt_of_lt_of_eq t.isLt N_0
  obtain ⟨n, hn⟩ : ∃ n : Fin 50000, n.val = t.val * 5000 + p.val := ⟨⟨t.val * 5000 + p.val, by have := p.isLt; omega⟩, rfl⟩
  obtain ⟨-, -, -, -, -, -, -, -, -, -, -, -, e0, e1⟩ := idx_facts0 t
  have hemb : ((cfg0.win 6).blk t).view.emb (ix2 p q) = ix2 n q := funext fun a => Fin.ext (by
    match a with
    | ⟨0, _⟩ => show win0_6.index t (0 : Fin 2) * 5000 + 1 * p.val = n.val; rw [e0, hn]; omega
    | ⟨1, _⟩ => show win0_6.index t (1 : Fin 2) * 128 + 1 * q.val = q.val; rw [e1]; omega)
  show k0_pay1 (F := Ideal) (iblk0 V c 0 t) (iblk0 V c 2 t) (iblk0 V c 1 t) (iblk0 V c 3 t) (iblk0 V c 4 t) (iblk0 V c 5 t) (ix2 p q)
    = layer0 V c (((cfg0.win 6).blk t).view.emb (ix2 p q))
  refine Eq.trans ?_ (congrArg (layer0 V c) hemb).symm
  exact k0_pay1_layer (V c main_v34) (V c main_arg0) (V c main_v12) (V c main_arg3) (V c main_arg4) (V c main_v22)
    (iblk0 V c 0 t) (iblk0 V c 1 t) (iblk0 V c 2 t) (iblk0 V c 3 t) (iblk0 V c 4 t) (iblk0 V c 5 t) n p q
    (fun k => iblk0_0_apply V c t p k n hn) (fun k => iblk0_1_apply V c t p k n hn) (iblk0_2_apply V c t p n hn)
    (fun k => iblk0_3_apply V c t k q) (fun k => iblk0_4_apply V c t k q) (iblk0_5_apply V c t q)

/-- An index of the output array is in point `t`'s block iff each coordinate is in the block's range on its axis. -/
theorem mem_blk0_6 (t : Fin cfg0.N) (i : S50000x128.Idx) :
    i ∈ ((cfg0.win 6).blk t).view.set
      ↔ ∀ a : Fin 2, win0_6.index t a * S5000x128.size a ≤ (i a).val ∧ (i a).val < win0_6.index t a * S5000x128.size a + S5000x128.size a := by
  show i ∈ ((View.whole main_v35).slice (win0_6.rect t)).set ↔ _
  rw [View.set_slice_whole, Rect.mem_set_unit]
  exact Iff.rfl

/-- Row `r` of the output lies in the block of point `r / 5000`, and every point writes its block back. -/
theorem covered0_6 (i : S50000x128.Idx) :
    ∃ t : Fin cfg0.N, (cfg0.win 6).flush t = true ∧ i ∈ ((cfg0.win 6).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, -, -, -, -, -, -, e0, e1⟩ := idx_facts0 t
  refine ⟨t, flush0_6 t, ?_⟩
  rw [mem_blk0_6]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- THE OUTPUT ARRAY of the first call: the dense layer of the arrays the call was entered with, at every node and
    feature. -/
theorem arr0_6 (c : Dev nD) :
    ((dat0 V c).arrAt 6 cfg0.N : S50000x128.Idx → EReal)
      = fun j => layerAt (V c main_v34) (V c main_arg0) (V c main_v12) (V c main_arg3) (V c main_arg4) (V c main_v22) (j 0) (j 1) :=
  (dat0 V c).arrAt_eq_of_cover 6 (layer0 V c) (fun t _ => flushed0_6_eq V c t) covered0_6

end Array0

end Cert.KernelIdeal.Hand

end
-- ==== Proof.KiValue1.lean ====
import proofs.«409877_j67551245631640_3_alg».proof.Proof.KiRegion1
import proofs.«409877_j67551245631640_3_alg».proof.Proof.KiSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # What the second pallas_call leaves in its output array

The second call's grid is 2 × 25: half `p` of the nodes, block `i` of 1000 nodes within it. At each point the body
forms the second dense layer on the block — `max(Σ_k (agg n k · dinv n) · Wl k f + Σ_k h n k · Wr k f + b f, 0)` for
each node `n` of the block — and multiplies it from the left by the transposed one-hot matrix of the block's graph
ids, a 256 × 128 contribution whose entry (g, f) is the sum of the layer's values at feature `f` over the block's
nodes that belong to graph `g`. The contributions of a half's 25 blocks are added in a scratch accumulator that is
zeroed at the first block, and the accumulator is copied into block `p` of the 2 × 256 × 128 output at the last.

Over the extended reals the float formats play no part and the zero fill is the additive zero, so the accumulator
after block `i` is the plain sum of the contributions up to `i`; the rows of the blocks of half `p` are the nodes
`(25 p + i) · 1000 + r`; and the two write-backs, at the last points of the two halves, tile the output array.
Hence the array ends as `poolAt` of the arrays the call was entered with. -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## The dense layer's two products and the pooling product, read at an index -/

theorem dl_lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem dl_lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem dl_rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem dl_rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A block's product with a weight matrix into a zero accumulator: row `r`, column `f` is `Σ_k a r k · w k f`. -/
theorem dense_apply {φ₁ φ₂ : FTy} (a : FVec Ideal S1000x128 φ₁) (w : FVec Ideal S128x128 φ₂) (r : Fin 1000) (f : Fin 128) :
    FloatOps.matmul dot_S1000x128_S128x128_S1000x128_1_0_0_1_n_n none a w (constant S1000x128 .f32 0x00000000#32) (ix2 r f)
      = ∑ k : Fin 128, a (ix2 r k) * w (ix2 k f) := by
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 r f) ((ValueIdx.contrEquiv1 dot_S1000x128_S128x128_S1000x128_1_0_0_1_n_n 128 rfl rfl).symm k) = ix2 r k := funext fun a => Fin.ext (by
    match a with
    | ⟨0, _⟩ => exact dl_lhs_0 _ _
    | ⟨1, _⟩ => exact (dl_lhs_1 _ _).trans hk)
  have er : dot_S1000x128_S128x128_S1000x128_1_0_0_1_n_n.rhsIdx (ix2 r f) ((ValueIdx.contrEquiv1 dot_S1000x128_S128x128_S1000x128_1_0_0_1_n_n 128 rfl rfl).symm k) = ix2 k f := funext fun a => Fin.ext (by
    match a with
    | ⟨0, _⟩ => exact (dl_rhs_0 _ _).trans hk
    | ⟨1, _⟩ => exact dl_rhs_1 _ _)
  rw [el, er]

theorem pl_lhs_0 (i : S256x128.Idx) (q : dot_S1000x256_S1000x128_S256x128_0_0_1_1_n_n.contr.Idx) :
    (dot_S1000x256_S1000x128_S256x128_0_0_1_1_n_n.lhsIdx i q 0).val = (q ⟨0, by decide⟩).val :=
  dot_S1000x256_S1000x128_S256x128_0_0_1_1_n_n.lhsIdx_val_of_single rfl i q
theorem pl_lhs_1 (i : S256x128.Idx) (q : dot_S1000x256_S1000x128_S256x128_0_0_1_1_n_n.contr.Idx) :
    (dot_S1000x256_S1000x128_S256x128_0_0_1_1_n_n.lhsIdx i q 1).val = (i 0).val := by
  unfold DotDims.lhsIdx
  rw [dif_neg (show ¬(1 : Fin S1000x256.rank) ∈ dot_S1000x256_S1000x128_S256x128_0_0_1_1_n_n.lhsBatch by decide), dif_pos (show (1 : Fin S1000x256.rank) ∈ dot_S1000x256_S1000x128_S256x128_0_0_1_1_n_n.lhsNonContracting by decide)]
  rfl
theorem pl_rhs_0 (i : S256x128.Idx) (q : dot_S1000x256_S1000x128_S256x128_0_0_1_1_n_n.contr.Idx) :
    (dot_S1000x256_S1000x128_S256x128_0_0_1_1_n_n.rhsIdx i q 0).val = (q ⟨0, by decide⟩).val :=
  dot_S1000x256_S1000x128_S256x128_0_0_1_1_n_n.rhsIdx_val_of_single rfl i q
theorem pl_rhs_1 (i : S256x128.Idx) (q : dot_S1000x256_S1000x128_S256x128_0_0_1_1_n_n.contr.Idx) :
    (dot_S1000x256_S1000x128_S256x128_0_0_1_1_n_n.rhsIdx i q 1).val = (i 1).val := by
  unfold DotDims.rhsIdx
  rw [dif_neg (show ¬(1 : Fin S1000x128.rank) ∈ dot_S1000x256_S1000x128_S256x128_0_0_1_1_n_n.rhsBatch by decide), dif_pos (show (1 : Fin S1000x128.rank) ∈ dot_S1000x256_S1000x128_S256x128_0_0_1_1_n_n.rhsNonContracting by decide)]
  rfl

/-- The pooling product contracts the row axis of both operands: entry (g, f) is `Σ_r o r g · y r f`. -/
theorem pool_apply {φ₁ φ₂ : FTy} (o : FVec Ideal S1000x256 φ₁) (y : FVec Ideal S1000x128 φ₂) (g : Fin 256) (f : Fin 128) :
    FloatOps.matmul dot_S1000x256_S1000x128_S256x128_0_0_1_1_n_n none o y (constant S256x128 .f32 0x00000000#32) (ix2 g f)
      = ∑ r : Fin 1000, o (ix2 r g) * y (ix2 r f) := by
  rw [Ideal.matmul_constant_zero_apply, ← Equiv.sum_comp (ValueIdx.contrEquiv1 dot_S1000x256_S1000x128_S256x128_0_0_1_1_n_n 1000 rfl rfl).symm]
  refine Finset.sum_congr rfl fun k _ => ?_
  have hk := ValueIdx.contrEquiv1_symm_val dot_S1000x256_S1000x128_S256x128_0_0_1_1_n_n 1000 rfl rfl k
  have el : dot_S1000x256_S1000x128_S256x128_0_0_1_1_n_n.lhsIdx (ix2 g f) ((ValueIdx.contrEquiv1 dot_S1000x256_S1000x128_S256x128_0_0_1_1_n_n 1000 rfl rfl).symm k) = ix2 k g := funext fun a => Fin.ext (by
    match a with
    | ⟨0, _⟩ => exact (pl_lhs_0 _ _).trans hk
    | ⟨1, _⟩ => exact pl_lhs_1 _ _)
  have er : dot_S1000x256_S1000x128_S256x128_0_0_1_1_n_n.rhsIdx (ix2 g f) ((ValueIdx.contrEquiv1 dot_S1000x256_S1000x128_S256x128_0_0_1_1_n_n 1000 rfl rfl).symm k) = ix2 k f := funext fun a => Fin.ext (by
    match a with
    | ⟨0, _⟩ => exact (pl_rhs_0 _ _).trans hk
    | ⟨1, _⟩ => exact pl_rhs_1 _ _)
  rw [el, er]

/-! ## The layout operations of the block's value, read at an index -/

/-- The normalising column, broadcast along the features. -/
theorem bcast_col_apply {α : Type} (v : S1000x1.Idx → α) (r : Fin 1000) (k : Fin 128) :
    broadcastTo S1000x128 v broadcasts_S1000x1_S1000x128 (ix2 r k) = v (ix2 r (0 : Fin 1)) :=
  broadcastTo_apply v _ (ix2 r k) (ix2 r (0 : Fin 1)) (fun a => by
    match a with
    | ⟨0, _⟩ => rfl
    | ⟨1, _⟩ => rfl)

/-- The bias row, broadcast along the nodes. -/
theorem bcast_row_apply {α : Type} (v : S1x128.Idx → α) (r : Fin 1000) (f : Fin 128) :
    broadcastTo S1000x128 v broadcasts_S1x128_S1000x128 (ix2 r f) = v (ix2 (0 : Fin 1) f) :=
  broadcastTo_apply v _ (ix2 r f) (ix2 (0 : Fin 1) f) (fun a => by
    match a with
    | ⟨0, _⟩ => rfl
    | ⟨1, _⟩ => rfl)

/-- The graph-id column, broadcast along the 256 graph slots. -/
theorem bcast_ids_apply {α : Type} (v : S1000x1.Idx → α) (r : Fin 1000) (g : Fin 256) :
    broadcastTo S1000x256 v broadcasts_S1000x1_S1000x256 (ix2 r g) = v (ix2 r (0 : Fin 1)) :=
  broadcastTo_apply v _ (ix2 r g) (ix2 r (0 : Fin 1)) (fun a => by
    match a with
    | ⟨0, _⟩ => rfl
    | ⟨1, _⟩ => rfl)

/-- A comparison word, widened and read as a float, is the indicator of the equality. -/
theorem sitofp_eq_word (a b : BitVec 32) :
    FloatOps.sitofp (F := Ideal) .f32 ((IntOp.cmpi .eq a b).setWidth 32) = if a = b then (1 : EReal) else 0 := by
  by_cases h : a = b
  · rw [if_pos h, show IntOp.cmpi .eq a b = 1#1 from by
      show BitVec.ofBool (a == b) = 1#1
      rw [beq_iff_eq.mpr h]; rfl]
    show ((((1#1 : BitVec 1).setWidth 32).toInt : ℝ) : EReal) = 1
    rw [show ((1#1 : BitVec 1).setWidth 32).toInt = 1 from by decide]; norm_num
  · rw [if_neg h, show IntOp.cmpi .eq a b = 0#1 from by
      show BitVec.ofBool (a == b) = 0#1
      rw [beq_eq_false_iff_ne.mpr h]; rfl]
    show ((((0#1 : BitVec 1).setWidth 32).toInt : ℝ) : EReal) = 0
    rw [show ((0#1 : BitVec 1).setWidth 32).toInt = 0 from by decide]; norm_num

/-- The one-hot factor at (r, g): 1 when node `r` of the block belongs to graph `g`, else 0. -/
theorem onehot_apply (ids : Vec Ideal S1000x1 .i32) (r : Fin 1000) (g : Fin 256) :
    (sitofp .f32 (extui 32 (cmpi .eq (broadcastTo S1000x256 (shapeCast S1000x1 ids shapeCasts_S1000x1_S1000x1) broadcasts_S1000x1_S1000x256)
        (iota .tc S1000x256 32 [1] iota_S1000x256_d1_w32)) natLt_1_32) : FVec Ideal S1000x256 .f32) (ix2 r g)
      = ind (ids (ix2 r (0 : Fin 1))) g := by
  rw [sitofp_apply, extui_apply]
  show FloatOps.sitofp (F := Ideal) .f32 ((IntOp.cmpi .eq (broadcastTo S1000x256 (shapeCast S1000x1 ids shapeCasts_S1000x1_S1000x1) broadcasts_S1000x1_S1000x256 (ix2 r g))
      (iota .tc S1000x256 32 [1] iota_S1000x256_d1_w32 (ix2 r g))).setWidth 32) = _
  rw [bcast_ids_apply, shapeCast_self, iota_single_apply, sitofp_eq_word]
  rfl

/-! ## One block's contribution at an index -/

/-- The dense layer's value on a block, at row `r` and feature `f`, from the block's loads. -/
def blockLayer (x0 x1 : Vec Ideal S1000x128 .f32) (x2 : Vec Ideal S1000x1 .f32) (x4 x5 : Vec Ideal S128x128 .f32) (x6 : Vec Ideal S1x128 .f32)
    (r : Fin 1000) (f : Fin 128) : EReal :=
  max (((∑ k : Fin 128, (x0 (ix2 r k) * x2 (ix2 r (0 : Fin 1))) * x4 (ix2 k f))
      + ∑ k : Fin 128, x1 (ix2 r k) * x5 (ix2 k f)) + x6 (ix2 (0 : Fin 1) f)) (Ideal.ofBits .f32 0x00000000#32)

/-- Entry (g, f) of a block's contribution: the layer's values at feature `f` of the block's nodes that belong to graph `g`, summed. -/
theorem contrib1_apply (x0 x1 : Vec Ideal S1000x128 .f32) (x2 : Vec Ideal S1000x1 .f32) (x3 : Vec Ideal S1000x1 .i32)
    (x4 x5 : Vec Ideal S128x128 .f32) (x6 : Vec Ideal S1x128 .f32) (g : Fin 256) (f : Fin 128) :
    contrib1 (F := Ideal) x0 x1 x2 x3 x4 x5 x6 (ix2 g f)
      = ∑ r : Fin 1000, ind (x3 (ix2 r (0 : Fin 1))) g * blockLayer x0 x1 x2 x4 x5 x6 r f := by
  unfold contrib1 k1_pay4
  simp only [View.ld_unit_zero (S := S1000x128) hz2, View.ld_unit_zero (S := S1000x1) hz2, View.ld_unit_zero (S := S128x128) hz2, View.ld_unit_zero (S := S1x128) hz2]
  refine (pool_apply _ _ g f).trans ?_
  refine Finset.sum_congr rfl fun r _ => ?_
  refine congrArg₂ (· * ·) ((truncf_apply (ψ := .bf16) _ bitsLt_bf16_f32 _).trans (onehot_apply x3 r g)) ((truncf_apply (ψ := .bf16) _ bitsLt_bf16_f32 _).trans ?_)
  refine (maximumf_apply _ _ _).trans ?_
  unfold blockLayer
  refine congrArg₂ max ?_ rfl
  refine (addf_apply _ _ _).trans ?_
  refine congrArg₂ (· + ·) ((addf_apply _ _ _).trans ?_) ((bcast_row_apply _ r f).trans (congrFun (shapeCast_self x6 _) _))
  refine congrArg₂ (· + ·) ((dense_apply _ _ r f).trans ?_) ((dense_apply _ _ r f).trans ?_)
  · refine Finset.sum_congr rfl fun k _ => ?_
    refine congrArg₂ (· * ·) ((truncf_apply (ψ := .bf16) _ bitsLt_bf16_f32 _).trans ((mulf_apply _ _ _).trans ?_)) (truncf_apply (ψ := .bf16) _ bitsLt_bf16_f32 _)
    exact congrArg₂ (· * ·) (congrFun (shapeCast_self x0 _) _) ((bcast_col_apply _ r k).trans (congrFun (shapeCast_self x2 _) _))
  · refine Finset.sum_congr rfl fun k _ => ?_
    exact congrArg₂ (· * ·) ((truncf_apply (ψ := .bf16) _ bitsLt_bf16_f32 _).trans (congrFun (shapeCast_self x1 _) _)) (truncf_apply (ψ := .bf16) _ bitsLt_bf16_f32 _)

/-! ## The accumulator after a point, from what it held before -/

/-- Restarted at the first block of a half: the zero fill plus the block's contribution. -/
theorem accFirst_apply (x0 x1 : Vec Ideal S1000x128 .f32) (x2 : Vec Ideal S1000x1 .f32) (x3 : Vec Ideal S1000x1 .i32)
    (x4 x5 : Vec Ideal S128x128 .f32) (x6 : Vec Ideal S1x128 .f32) (j : S256x128.Idx) :
    accFirst (F := Ideal) x0 x1 x2 x3 x4 x5 x6 j = contrib1 (F := Ideal) x0 x1 x2 x3 x4 x5 x6 j := by
  unfold accFirst
  rw [View.canon_cons_unit_zero (S := S256x128) hz2, View.canon_unit_zero (S := S256x128) hz2, View.ld_unit_zero (S := S256x128) hz2]
  unfold k1_pay1 k1_pay3
  simp only [shapeCast_self]
  refine (addf_apply _ _ _).trans ?_
  rw [broadcast_apply]
  show Ideal.ofBits .f32 0x00000000#32 + _ = _
  rw [Ideal.ofBits_zero_f32, zero_add]

/-- Elsewhere: what it held plus the block's contribution. -/
theorem accNext_apply (prev : Vec Ideal S256x128 .f32) (x0 x1 : Vec Ideal S1000x128 .f32) (x2 : Vec Ideal S1000x1 .f32) (x3 : Vec Ideal S1000x1 .i32)
    (x4 x5 : Vec Ideal S128x128 .f32) (x6 : Vec Ideal S1x128 .f32) (j : S256x128.Idx) :
    accNext (F := Ideal) prev x0 x1 x2 x3 x4 x5 x6 j = prev j + contrib1 (F := Ideal) x0 x1 x2 x3 x4 x5 x6 j := by
  unfold accNext
  rw [View.canon_unit_zero (S := S256x128) hz2, View.ld_unit_zero (S := S256x128) hz2]
  unfold k1_pay1
  simp only [shapeCast_self]
  exact addf_apply _ _ _

/-- The output block is the accumulator under a leading unit axis. -/
theorem outOf_apply (acc : Vec Ideal S256x128 .f32) (j : S1x256x128.Idx) :
    outOf (F := Ideal) acc j = acc (fun a => j a.succ) := by
  unfold outOf
  rw [View.canon_unit_zero (S := S1x256x128) hz3, View.ld_unit_zero (S := S256x128) hz2]
  unfold k1_pay2
  exact shapeCast_addUnit_apply (n := 2) ![256, 128] acc shapeCasts_S256x128_S1x256x128 j

/-! ## The windows' index maps, decided over the grid -/

/-- The four row-blocked inputs take block `t` of 50 along the nodes; -/
theorem idx1_rows : ∀ t : Fin cfg1.N, (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0) :=
  (by decide +kernel : ∀ t : Fin grid1.N, (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0))
/-- the weights and the bias are whole at every point; -/
theorem idx1_whole : ∀ t : Fin cfg1.N, (win1_4.index t 0 = 0 ∧ win1_4.index t 1 = 0) ∧ (win1_5.index t 0 = 0 ∧ win1_5.index t 1 = 0)
    ∧ (win1_6.index t 0 = 0 ∧ win1_6.index t 1 = 0) :=
  (by decide +kernel : ∀ t : Fin grid1.N, (win1_4.index t 0 = 0 ∧ win1_4.index t 1 = 0) ∧ (win1_5.index t 0 = 0 ∧ win1_5.index t 1 = 0)
    ∧ (win1_6.index t 0 = 0 ∧ win1_6.index t 1 = 0))
/-- the output's block is the half the point lies in. -/
theorem idx1_out : ∀ t : Fin cfg1.N, win1_7.index t 0 = t.val / 25 ∧ win1_7.index t 1 = 0 ∧ win1_7.index t 2 = 0 :=
  (by decide +kernel : ∀ t : Fin grid1.N, win1_7.index t 0 = t.val / 25 ∧ win1_7.index t 1 = 0 ∧ win1_7.index t 2 = 0)

/-! ## The input blocks as rows of their arrays -/

section Blocks
variable (V : (c : Dev nD) → (b : Ref sig .tc) → Buf (Elt Ideal) ((c : Thread nD τ).loc b))

theorem blk1_0_apply (c : Dev nD) (t : Fin cfg1.N) (r : Fin 1000) (k : Fin 128) (n : Fin 50000) (hn : n.val = 1000 * t.val + r.val) :
    (iblk1 V c 0 t : Vec Ideal S1000x128 .f32) (ix2 r k) = (V c main_v45 : S50000x128.Idx → EReal) (ix2 n k) := by
  have hi := (idx1_rows t).1
  unfold iblk1
  rw [View.read_apply]
  show V c main_v45 _ = V c main_v45 _
  congr 1
  funext a
  apply Fin.ext
  match a with
  | ⟨0, _⟩ => show win1_0.index t 0 * 1000 + 1 * r.val = n.val; rw [hi.1, hn]; omega
  | ⟨1, _⟩ => show win1_0.index t 1 * 128 + 1 * k.val = k.val; rw [hi.2]; omega

theorem blk1_1_apply (c : Dev nD) (t : Fin cfg1.N) (r : Fin 1000) (k : Fin 128) (n : Fin 50000) (hn : n.val = 1000 * t.val + r.val) :
    (iblk1 V c 1 t : Vec Ideal S1000x128 .f32) (ix2 r k) = (V c main_v35 : S50000x128.Idx → EReal) (ix2 n k) := by
  have hi := (idx1_rows t).2.1
  unfold iblk1
  rw [View.read_apply]
  show V c main_v35 _ = V c main_v35 _
  congr 1
  funext a
  apply Fin.ext
  match a with
  | ⟨0, _⟩ => show win1_1.index t 0 * 1000 + 1 * r.val = n.val; rw [hi.1, hn]; omega
  | ⟨1, _⟩ => show win1_1.index t 1 * 128 + 1 * k.val = k.val; rw [hi.2]; omega

theorem blk1_2_apply (c : Dev nD) (t : Fin cfg1.N) (r : Fin 1000) (n : Fin 50000) (hn : n.val = 1000 * t.val + r.val) :
    (iblk1 V c 2 t : Vec Ideal S1000x1 .f32) (ix2 r (0 : Fin 1)) = (V c main_v12 : S50000x1.Idx → EReal) (ix2 n (0 : Fin 1)) := by
  have hi := (idx1_rows t).2.2.1
  unfold iblk1
  rw [View.read_apply]
  show V c main_v12 _ = V c main_v12 _
  congr 1
  funext a
  apply Fin.ext
  match a with
  | ⟨0, _⟩ => show win1_2.index t 0 * 1000 + 1 * r.val = n.val; rw [hi.1, hn]; omega
  | ⟨1, _⟩ => show win1_2.index t 1 * 1 + 1 * 0 = 0; rw [hi.2]

theorem blk1_3_apply (c : Dev nD) (t : Fin cfg1.N) (r : Fin 1000) (n : Fin 50000) (hn : n.val = 1000 * t.val + r.val) :
    (iblk1 V c 3 t : Vec Ideal S1000x1 .i32) (ix2 r (0 : Fin 1)) = (V c main_v24 : S50000x1.Idx → BitVec 32) (ix2 n (0 : Fin 1)) := by
  have hi := (idx1_rows t).2.2.2
  unfold iblk1
  rw [View.read_apply]
  show V c main_v24 _ = V c main_v24 _
  congr 1
  funext a
  apply Fin.ext
  match a with
  | ⟨0, _⟩ => show win1_3.index t 0 * 1000 + 1 * r.val = n.val; rw [hi.1, hn]; omega
  | ⟨1, _⟩ => show win1_3.index t 1 * 1 + 1 * 0 = 0; rw [hi.2]

theorem blk1_4_apply (c : Dev nD) (t : Fin cfg1.N) (k : Fin 128) (f : Fin 128) :
    (iblk1 V c 4 t : Vec Ideal S128x128 .f32) (ix2 k f) = (V c main_arg6 : S128x128.Idx → EReal) (ix2 k f) := by
  have hi := (idx1_whole t).1
  unfold iblk1
  rw [View.read_apply]
  show V c main_arg6 _ = V c main_arg6 _
  congr 1
  funext a
  apply Fin.ext
  match a with
  | ⟨0, _⟩ => show win1_4.index t 0 * 128 + 1 * k.val = k.val; rw [hi.1]; omega
  | ⟨1, _⟩ => show win1_4.index t 1 * 128 + 1 * f.val = f.val; rw [hi.2]; omega

theorem blk1_5_apply (c : Dev nD) (t : Fin cfg1.N) (k : Fin 128) (f : Fin 128) :
    (iblk1 V c 5 t : Vec Ideal S128x128 .f32) (ix2 k f) = (V c main_arg7 : S128x128.Idx → EReal) (ix2 k f) := by
  have hi := (idx1_whole t).2.1
  unfold iblk1
  rw [View.read_apply]
  show V c main_arg7 _ = V c main_arg7 _
  congr 1
  funext a
  apply Fin.ext
  match a with
  | ⟨0, _⟩ => show win1_5.index t 0 * 128 + 1 * k.val = k.val; rw [hi.1]; omega
  | ⟨1, _⟩ => show win1_5.index t 1 * 128 + 1 * f.val = f.val; rw [hi.2]; omega

theorem blk1_6_apply (c : Dev nD) (t : Fin cfg1.N) (f : Fin 128) :
    (iblk1 V c 6 t : Vec Ideal S1x128 .f32) (ix2 (0 : Fin 1) f) = (V c main_v23 : S1x128.Idx → EReal) (ix2 (0 : Fin 1) f) := by
  have hi := (idx1_whole t).2.2
  unfold iblk1
  rw [View.read_apply]
  show V c main_v23 _ = V c main_v23 _
  congr 1
  funext a
  apply Fin.ext
  match a with
  | ⟨0, _⟩ => show win1_6.index t 0 * 1 + 1 * 0 = 0; rw [hi.1]
  | ⟨1, _⟩ => show win1_6.index t 1 * 128 + 1 * f.val = f.val; rw [hi.2]; omega

/-! ## One point's contribution, and the accumulator as the sum along a half -/

/-- The node that row `r` of the block at grid position `t` holds. -/
def nodeAt (t : Fin cfg1.N) (r : Fin 1000) : Fin 50000 :=
  ⟨1000 * t.val + r.val, by have := t.isLt; have := r.isLt; have hN : cfg1.N = 50 := N_1; omega⟩

/-- The contribution of the block at grid position `n` (nothing past the grid). -/
def cAt (c : Dev nD) (n : ℕ) : Vec Ideal S256x128 .f32 :=
  if h : n < cfg1.N then
    contrib1 (F := Ideal) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (iblk1 V c 6 ⟨n, h⟩)
  else fun _ => 0

theorem cAt_of_lt (c : Dev nD) (t : Fin cfg1.N) :
    cAt V c t.val = contrib1 (F := Ideal) (iblk1 V c 0 t) (iblk1 V c 1 t) (iblk1 V c 2 t) (iblk1 V c 3 t) (iblk1 V c 4 t) (iblk1 V c 5 t) (iblk1 V c 6 t) :=
  dif_pos t.isLt

/-- Entry (g, f) of the contribution at `t`: over the block's 1000 nodes, the second layer's value at the node, kept
    where the node's graph id is `g`. -/
theorem cAt_apply (c : Dev nD) (t : Fin cfg1.N) (g : Fin 256) (f : Fin 128) :
    cAt V c t.val (ix2 g f)
      = ∑ r : Fin 1000, ind ((V c main_v24 : S50000x1.Idx → BitVec 32) (ix2 (nodeAt t r) (0 : Fin 1))) g
          * layerAt (V c main_v45) (V c main_v35) (V c main_v12) (V c main_arg6) (V c main_arg7) (V c main_v23) (nodeAt t r) f := by
  rw [cAt_of_lt]
  refine (contrib1_apply (iblk1 V c 0 t) (iblk1 V c 1 t) (iblk1 V c 2 t) (iblk1 V c 3 t) (iblk1 V c 4 t) (iblk1 V c 5 t) (iblk1 V c 6 t) g f).trans ?_
  refine Finset.sum_congr rfl fun r _ => ?_
  refine congrArg₂ (· * ·) (congrArg (fun b => ind b g) (blk1_3_apply V c t r (nodeAt t r) rfl)) ?_
  unfold blockLayer layerAt
  refine congrArg₂ max ?_ rfl
  refine congrArg₂ (· + ·) (congrArg₂ (· + ·) ?_ ?_) (blk1_6_apply V c t f)
  · refine Finset.sum_congr rfl fun k _ => ?_
    exact congrArg₂ (· * ·) (congrArg₂ (· * ·) (blk1_0_apply V c t r k (nodeAt t r) rfl) (blk1_2_apply V c t r (nodeAt t r) rfl)) (blk1_4_apply V c t k f)
  · refine Finset.sum_congr rfl fun k _ => ?_
    exact congrArg₂ (· * ·) (blk1_1_apply V c t r k (nodeAt t r) rfl) (blk1_5_apply V c t k f)

theorem accAt_congr (c : Dev nD) {n n' : ℕ} (e : n = n') (h : n < cfg1.N) (h' : n' < cfg1.N) :
    accAt V c n h = accAt V c n' h' := by subst e; rfl

/-- After block `i` of half `p` the accumulator holds the contributions of the half's blocks up to `i`, summed. -/
theorem accAt_half (c : Dev nD) (p : ℕ) (hp : p < 2) : ∀ (i : ℕ) (hi : i < 25) (h : 25 * p + i < cfg1.N) (j : S256x128.Idx),
    accAt V c (25 * p + i) h j = ∑ k ∈ Finset.range (i + 1), cAt V c (25 * p + k) j
  | 0, hi, h, j => by
    have e := accAt_first V c ⟨25 * p + 0, h⟩ (by show (25 * p + 0) % 25 = 0; omega)
    rw [Finset.sum_range_one]
    refine (congrFun e j).trans ?_
    refine (accFirst_apply (iblk1 V c 0 ⟨25 * p + 0, h⟩) (iblk1 V c 1 ⟨25 * p + 0, h⟩) (iblk1 V c 2 ⟨25 * p + 0, h⟩) (iblk1 V c 3 ⟨25 * p + 0, h⟩)
      (iblk1 V c 4 ⟨25 * p + 0, h⟩) (iblk1 V c 5 ⟨25 * p + 0, h⟩) (iblk1 V c 6 ⟨25 * p + 0, h⟩) j).trans ?_
    exact (congrFun (cAt_of_lt V c ⟨25 * p + 0, h⟩) j).symm
  | i + 1, hi, h, j => by
    have hN : cfg1.N = 50 := N_1
    have h' : 25 * p + i < cfg1.N := by omega
    have e := accAt_next V c ⟨25 * p + (i + 1), h⟩ (by show ¬(25 * p + (i + 1)) % 25 = 0; omega)
    rw [Finset.sum_range_succ]
    refine (congrFun e j).trans ?_
    refine (accNext_apply _ (iblk1 V c 0 ⟨25 * p + (i + 1), h⟩) (iblk1 V c 1 ⟨25 * p + (i + 1), h⟩) (iblk1 V c 2 ⟨25 * p + (i + 1), h⟩) (iblk1 V c 3 ⟨25 * p + (i + 1), h⟩)
      (iblk1 V c 4 ⟨25 * p + (i + 1), h⟩) (iblk1 V c 5 ⟨25 * p + (i + 1), h⟩) (iblk1 V c 6 ⟨25 * p + (i + 1), h⟩) j).trans ?_
    refine congrArg₂ (· + ·) ?_ (congrFun (cAt_of_lt V c ⟨25 * p + (i + 1), h⟩) j).symm
    refine (congrFun (accAt_congr V c (show 25 * p + (i + 1) - 1 = 25 * p + i by omega) _ h') j).trans ?_
    exact accAt_half c p hp i (by omega) h' j

/-! ## The output array -/

theorem nodeAt_eq (p : Fin 2) (i : Fin 25) (r : Fin 1000) (h : 25 * p.val + i.val < cfg1.N) :
    nodeAt ⟨25 * p.val + i.val, h⟩ r = nodeOf p i r := by
  apply Fin.ext
  show 1000 * (25 * p.val + i.val) + r.val = (p.val * 25 + i.val) * 1000 + r.val
  omega

theorem poolAt_congr (agg h : Vec Ideal S50000x128 .f32) (dinv : Vec Ideal S50000x1 .f32) (batch : S50000x1.Idx → BitVec 32)
    (wl wr : Vec Ideal S128x128 .f32) (b : Vec Ideal S1x128 .f32) {p p' : Fin 2} {g g' : Fin 256} {f f' : Fin 128}
    (hp : p.val = p'.val) (hg : g.val = g'.val) (hf : f.val = f'.val) :
    poolAt agg h dinv batch wl wr b p g f = poolAt agg h dinv batch wl wr b p' g' f' := by
  obtain rfl := Fin.ext hp; obtain rfl := Fin.ext hg; obtain rfl := Fin.ext hf; rfl

/-- After the last block of half `p` the accumulator holds the half's pooled sums. -/
theorem accAt_last (c : Dev nD) (t : Fin cfg1.N) (h24 : t.val % 25 = 24) (p : Fin 2) (hp : p.val = t.val / 25) (g : Fin 256) (f : Fin 128) :
    accAt V c t.val t.isLt (ix2 g f)
      = poolAt (V c main_v45) (V c main_v35) (V c main_v12) (V c main_v24) (V c main_arg6) (V c main_arg7) (V c main_v23) p g f := by
  have hN : cfg1.N = 50 := N_1
  have ht : t.val = 25 * p.val + 24 := by omega
  have h' : 25 * p.val + 24 < cfg1.N := by have := t.isLt; omega
  refine (congrFun (accAt_congr V c ht t.isLt h') (ix2 g f)).trans ?_
  refine (accAt_half V c p.val p.isLt 24 (by omega) h' (ix2 g f)).trans ?_
  rw [Finset.sum_range (fun k => cAt V c (25 * p.val + k) (ix2 g f))]
  unfold poolAt
  refine Finset.sum_congr rfl fun i _ => ?_
  have hi : 25 * p.val + i.val < cfg1.N := by have := i.isLt; omega
  refine (cAt_apply V c ⟨25 * p.val + i.val, hi⟩ g f).trans ?_
  refine Finset.sum_congr rfl fun r _ => ?_
  rw [nodeAt_eq p i r hi]

end Blocks

/-- An index of the output array is in the block at point `t` iff each coordinate is in the block's range on its axis. -/
theorem mem_blk1_7 (t : Fin cfg1.N) (i : S2x256x128.Idx) :
    i ∈ ((cfg1.win 7).blk t).view.set ↔ ∀ a : Fin 3, win1_7.index t a * S1x256x128.size a ≤ (i a).val ∧ (i a).val < win1_7.index t a * S1x256x128.size a + S1x256x128.size a := by
  show i ∈ ((View.whole main_v46).slice (win1_7.rect t)).set ↔ _
  rw [View.set_slice_whole, Rect.mem_set_unit]
  exact Iff.rfl

/-- What the second call leaves in its output array: the pooled sums of both halves. -/
theorem arr1_7 (V : (c : Dev nD) → (b : Ref sig .tc) → Buf (Elt Ideal) ((c : Thread nD τ).loc b)) (c : Dev nD) :
    ((dat1 (F := Ideal) V c).arrAt 7 cfg1.N : S2x256x128.Idx → EReal)
      = fun j => poolAt (V c main_v45) (V c main_v35) (V c main_v12) (V c main_v24) (V c main_arg6) (V c main_arg7) (V c main_v23) (j 0) (j 1) (j 2) := by
  have hN : cfg1.N = 50 := N_1
  refine (dat1 (F := Ideal) V c).arrAt_eq_of_cover 7
    (fun j : S2x256x128.Idx => poolAt (V c main_v45) (V c main_v35) (V c main_v12) (V c main_v24) (V c main_arg6) (V c main_arg7) (V c main_v23) (j 0) (j 1) (j 2))
    (fun t hf => ?_) (fun i => ?_)
  · -- the block a flushing point writes back is its block of the pooled array
    have h24 : t.val % 25 = 24 := (flush1_7 t).mp hf
    have hi := idx1_out t
    funext y
    have y0 : (y 0 : ℕ) < 1 := (y 0).isLt
    have y1 : (y 1 : ℕ) < 256 := (y 1).isLt
    have y2 : (y 2 : ℕ) < 128 := (y 2).isLt
    show (cfg1.win 7).cut (grid1.coords t) ((dat1 (F := Ideal) V c).after 7 t) y = _
    rw [after1_7, View.read_apply]
    refine (outOf_apply (accAt V c t.val t.isLt) _).trans ?_
    have e : (fun a : Fin 2 => ((cfg1.win 7).xinj (grid1.coords t) y) a.succ) = ix2 (⟨(y 1 : ℕ), y1⟩ : Fin 256) (⟨(y 2 : ℕ), y2⟩ : Fin 128) :=
      funext fun a => Fin.ext (by
        match a with
        | ⟨0, _⟩ => rfl
        | ⟨1, _⟩ => rfl)
    refine (congrArg (accAt V c t.val t.isLt) e).trans ?_
    have htN : t.val < 50 := lt_of_lt_of_eq t.isLt hN
    refine (accAt_last V c t h24 ⟨t.val / 25, by omega⟩ rfl _ _).trans ?_
    refine poolAt_congr _ _ _ _ _ _ _ ?_ ?_ ?_
    · show t.val / 25 = win1_7.index t 0 * 1 + 1 * (y 0 : ℕ)
      rw [hi.1]; omega
    · show (y 1 : ℕ) = win1_7.index t 1 * 256 + 1 * (y 1 : ℕ)
      rw [hi.2.1]; omega
    · show (y 2 : ℕ) = win1_7.index t 2 * 128 + 1 * (y 2 : ℕ)
      rw [hi.2.2]; omega
  · -- every index lies in the block written back at the last point of its half
    have i0 : (i 0 : ℕ) < 2 := (i 0).isLt
    have i1 : (i 1 : ℕ) < 256 := (i 1).isLt
    have i2 : (i 2 : ℕ) < 128 := (i 2).isLt
    obtain ⟨t, ht⟩ : ∃ t : Fin cfg1.N, t.val = 25 * (i 0 : ℕ) + 24 := ⟨⟨25 * (i 0 : ℕ) + 24, by omega⟩, rfl⟩
    have hi := idx1_out t
    refine ⟨t, (flush1_7 t).mpr (by omega), ?_⟩
    rw [mem_blk1_7]
    intro a
    match a with
    | ⟨0, _⟩ =>
      show win1_7.index t 0 * 1 ≤ (i 0 : ℕ) ∧ (i 0 : ℕ) < win1_7.index t 0 * 1 + 1
      rw [hi.1]; omega
    | ⟨1, _⟩ =>
      show win1_7.index t 1 * 256 ≤ (i 1 : ℕ) ∧ (i 1 : ℕ) < win1_7.index t 1 * 256 + 256
      rw [hi.2.1]; omega
    | ⟨2, _⟩ =>
      show win1_7.index t 2 * 128 ≤ (i 2 : ℕ) ∧ (i 2 : ℕ) < win1_7.index t 2 * 128 + 128
      rw [hi.2.2]; omega

end Cert.KernelIdeal.Hand

end
-- ==== Proof.KiHost.lean ====
import proofs.«409877_j67551245631640_3_alg».proof.Proof.KiRun
import proofs.«409877_j67551245631640_3_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo Idealize.ShloMosaic.ValueIdx

variable (m : (ℓ : Loc nD τ sig) → Buf (Elt Ideal) ℓ) (ρ : Dev nD → PrngReg) (c : Dev nD)

/-! # What the host stretches of the program leave in the buffers the two calls read

The program's host operations before each call are the reference's own preprocessing — the two rows of the edge list,
the wrap-around of negative sources, the gather of the sources' rows and the scatter-add onto the destinations, the
degree count and its clamped reciprocal — written into the buffers the calls' windows stage, together with plain
reshapes of the bias vectors and of the graph ids. Each buffer is read here as the reference's stage function of the
same arguments: the two sides are the same composition of the same operations, so the equations hold by unfolding. -/

/-! ## Small layout facts -/

/-- An `[a]` array cast to a column `[a, 1]` reads, at `(i, 0)`, the operand at `i`. -/
theorem castCol_apply {α : Type} {a : ℕ} (x : (⟨1, ![a]⟩ : Shape).Idx → α) (h : (⟨1, ![a]⟩ : Shape).ShapeCasts ⟨2, ![a, 1]⟩)
    (i : Fin a) : shapeCast ⟨2, ![a, 1]⟩ x h (ix2 i (0 : Fin 1)) = x (ix1 i) :=
  shapeCast_apply x h _ _ (by
    rw [Shape.rowMajor_val_two, Shape.rowMajor_val_one]
    show i.val = i.val * 1 + 0
    omega)

/-- The splat of 1.0 over the nodes reads 1.0 everywhere. -/
theorem oneNodes_apply (i : S50000.Idx) :
    broadcastInDim S50000 ![] bcast_S_S50000 (constant (F := Ideal) S_ .f32 0x3F800000#32) i = Ideal.ofBits .f32 0x3F800000#32 := rfl

/-- The host's quotient of two node vectors, entry by entry. -/
theorem divNodes_apply (a b : FVec Ideal S50000 .f32) (i : S50000.Idx) : Host.divf (F := Ideal) a b i = Ideal.div (a i) (b i) := rfl

/-! ## The first stretch: what the first call reads -/

/-- The summed neighbour features the first call stages are the reference's first scatter-add. -/
theorem host_agg1 :
    (V1 m ρ c main_v34 : S50000x128.Idx → EReal)
      = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v34) = _
  after_results_simp
  rfl

/-- The inverse-degree column, whole: 1.0 over the reference's clamped degree, cast to a column. -/
theorem host_dinv_col :
    (V1 m ρ c main_v12 : S50000x1.Idx → EReal)
      = shapeCast S50000x1 (Host.divf (F := Ideal) (broadcastInDim S50000 ![] bcast_S_S50000 (constant (F := Ideal) S_ .f32 0x3F800000#32))
          (Cert.ReferenceIdeal.Read.val_main_v19 (F := Ideal) (m ((c.tc : Thread nD τ).loc main_arg1)))) shapeCasts_S50000_S50000x1 := by
  show StableHlo.after hostOps0 (W0 m ρ c) (Proc.devRef .tc main_v12) = _
  after_results_simp
  rfl

/-- At node `n` it is 1.0 over the reference's clamped degree of `n`. -/
theorem host_dinv (n : Fin 50000) :
    (V1 m ρ c main_v12 : S50000x1.Idx → EReal) (ix2 n (0 : Fin 1))
      = Ideal.div (Ideal.ofBits .f32 0x3F800000#32)
          (Cert.ReferenceIdeal.Read.val_main_v19 (F := Ideal) (m ((c.tc : Thread nD τ).loc main_arg1)) (ix1 n)) := by
  rw [host_dinv_col]
  refine (castCol_apply _ _ n).trans ?_
  rw [divNodes_apply, oneNodes_apply]

/-- The first bias row is the bias vector, reshaped. -/
theorem host_b1row (f : Fin 128) :
    (V1 m ρ c main_v22 : S1x128.Idx → EReal) (ix2 (0 : Fin 1) f) = (m ((c.tc : Thread nD τ).loc main_arg5) : S128.Idx → EReal) (ix1 f) := by
  have h : (V1 m ρ c main_v22 : S1x128.Idx → EReal)
      = shapeCast S1x128 (m ((c.tc : Thread nD τ).loc main_arg5) : S128.Idx → EReal) shapeCasts_S128_S1x128 := by
    show StableHlo.after hostOps0 (W0 m ρ c) (Proc.devRef .tc main_v22) = _
    after_results_simp <;> rfl
  rw [h]
  exact shapeCast_a_1a_apply _ _ 0 f

/-- The first stretch writes none of the three arguments the first call stages. -/
theorem host_args1 :
    V1 m ρ c main_arg0 = m ((c.tc : Thread nD τ).loc main_arg0) ∧ V1 m ρ c main_arg3 = m ((c.tc : Thread nD τ).loc main_arg3)
      ∧ V1 m ρ c main_arg4 = m ((c.tc : Thread nD τ).loc main_arg4) := by
  refine ⟨?_, ?_, ?_⟩
  · show StableHlo.after hostOps0 (W0 m ρ c) (Proc.devRef .tc main_arg0) = _
    after_results_simp <;> rfl
  · show StableHlo.after hostOps0 (W0 m ρ c) (Proc.devRef .tc main_arg3) = _
    after_results_simp <;> rfl
  · show StableHlo.after hostOps0 (W0 m ρ c) (Proc.devRef .tc main_arg4) = _
    after_results_simp <;> rfl

end Cert.KernelIdeal.Hand

end
-- ==== Proof.KiHost3.lean ====
import proofs.«409877_j67551245631640_3_alg».proof.Proof.KiRun
import proofs.«409877_j67551245631640_3_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil nullary_result' unary_result' binary_result' ternary_result' quaternary_result' reshape_result' nary4_result' nary_result' unaryIndexed_result' binaryIndexed_result' nullary_result_ne' unary_result_ne' binary_result_ne' ternary_result_ne' quaternary_result_ne' reshape_result_ne' nary_result_ne' unaryIndexed_result_ne' binaryIndexed_result_ne')

/-! # What the second call is entered from

Between the two calls the host gathers the first layer's output along the edges and adds it up per destination node
(the second aggregation). Everything else the second call reads was prepared before the first call — the bias row and
the graph-id column are reshapes of two arguments, the normalising column comes from the degrees — or is an argument,
and neither the first call nor the operations between the calls write any of those buffers. -/

section Host3
variable (m : (ℓ : Loc nD τ sig) → Buf (Elt Ideal) ℓ) (ρ : Dev nD → PrngReg) (c : Dev nD)

/-- The operations between the calls leave the second layer's bias row as the first stretch made it, -/
theorem W3_main_v23 : W3 m ρ c (Proc.devRef .tc main_v23) = W1 m ρ c (Proc.devRef .tc main_v23) := by
  refine Eq.trans ?_ (W2_of_ne m ρ c main_v23 (by decide))
  show StableHlo.after hostOps1 (W2 m ρ c) (Proc.devRef .tc main_v23) = _
  after_results_simp

/-- and that is the bias argument under a leading unit axis. -/
theorem W1_main_v23 : (W1 m ρ c (Proc.devRef .tc main_v23) : S1x128.Idx → EReal)
    = shapeCast S1x128 (m ((c : Thread nD τ).loc main_arg8) : S128.Idx → EReal) shapeCasts_S128_S1x128 := by
  show StableHlo.after hostOps0 (W0 m ρ c) (Proc.devRef .tc main_v23) = _
  after_results_simp
  rfl

theorem host_b2row (f : Fin 128) :
    (V3 m ρ c main_v23 : S1x128.Idx → EReal) (ValueIdx.ix2 (0 : Fin 1) f) = (m ((c : Thread nD τ).loc main_arg8) : S128.Idx → EReal) (ValueIdx.ix1 f) := by
  show (W3 m ρ c (Proc.devRef .tc main_v23) : S1x128.Idx → EReal) (ValueIdx.ix2 (0 : Fin 1) f) = _
  rw [W3_main_v23, W1_main_v23]
  refine (shapeCast_addUnit_apply (n := 1) ![128] _ shapeCasts_S128_S1x128 (ValueIdx.ix2 (0 : Fin 1) f)).trans ?_
  exact congrArg _ (funext fun a => by match a with | ⟨0, _⟩ => rfl)

/-- The same for the graph-id column: kept between the calls, -/
theorem W3_main_v24 : W3 m ρ c (Proc.devRef .tc main_v24) = W1 m ρ c (Proc.devRef .tc main_v24) := by
  refine Eq.trans ?_ (W2_of_ne m ρ c main_v24 (by decide))
  show StableHlo.after hostOps1 (W2 m ρ c) (Proc.devRef .tc main_v24) = _
  after_results_simp

/-- and the graph-id argument under a trailing unit axis. -/
theorem W1_main_v24 : (W1 m ρ c (Proc.devRef .tc main_v24) : S50000x1.Idx → BitVec 32)
    = shapeCast S50000x1 (m ((c : Thread nD τ).loc main_arg2) : S50000.Idx → BitVec 32) shapeCasts_S50000_S50000x1 := by
  show StableHlo.after hostOps0 (W0 m ρ c) (Proc.devRef .tc main_v24) = _
  after_results_simp
  rfl

theorem host_batch (n : Fin 50000) :
    (V3 m ρ c main_v24 : S50000x1.Idx → BitVec 32) (ValueIdx.ix2 n (0 : Fin 1)) = (m ((c : Thread nD τ).loc main_arg2) : S50000.Idx → BitVec 32) (ValueIdx.ix1 n) := by
  show (W3 m ρ c (Proc.devRef .tc main_v24) : S50000x1.Idx → BitVec 32) (ValueIdx.ix2 n (0 : Fin 1)) = _
  rw [W3_main_v24, W1_main_v24]
  refine shapeCast_apply _ shapeCasts_S50000_S50000x1 (ValueIdx.ix2 n (0 : Fin 1)) (ValueIdx.ix1 n) ?_
  rw [Shape.rowMajor_val_one, Shape.rowMajor_val_two]
  show n.val = n.val * 1 + 0
  omega

/-- The two weight matrices of the second layer are arguments no operation and no call has written. -/
theorem host_args3 : V3 m ρ c main_arg6 = m ((c : Thread nD τ).loc main_arg6) ∧ V3 m ρ c main_arg7 = m ((c : Thread nD τ).loc main_arg7) := by
  constructor
  · show W3 m ρ c (Proc.devRef .tc main_arg6) = _
    refine Eq.trans ?_ ((W2_of_ne m ρ c main_arg6 (by decide)).trans ?_)
    · show StableHlo.after hostOps1 (W2 m ρ c) (Proc.devRef .tc main_arg6) = _
      after_results_simp
    · show StableHlo.after hostOps0 (W0 m ρ c) (Proc.devRef .tc main_arg6) = _
      after_results_simp
  · show W3 m ρ c (Proc.devRef .tc main_arg7) = _
    refine Eq.trans ?_ ((W2_of_ne m ρ c main_arg7 (by decide)).trans ?_)
    · show StableHlo.after hostOps1 (W2 m ρ c) (Proc.devRef .tc main_arg7) = _
      after_results_simp
    · show StableHlo.after hostOps0 (W0 m ρ c) (Proc.devRef .tc main_arg7) = _
      after_results_simp

/-- The first layer's output stays as the first call left it, and the normalising column, an input of the first call,
    as the first stretch made it. -/
theorem host_keep3 : V3 m ρ c main_v35 = V2 m ρ c main_v35 ∧ V3 m ρ c main_v12 = V1 m ρ c main_v12 := by
  constructor
  · show StableHlo.after hostOps1 (W2 m ρ c) (Proc.devRef .tc main_v35) = _
    after_results_simp
  · show W3 m ρ c (Proc.devRef .tc main_v12) = W1 m ρ c (Proc.devRef .tc main_v12)
    refine Eq.trans ?_ ((W2_arr m ρ c 2).trans (((dat0 (V1 m ρ) c).arrAt_in 2 rfl _).trans (A_eq0 (V1 m ρ) c 2)))
    show StableHlo.after hostOps1 (W2 m ρ c) (Proc.devRef .tc main_v12) = _
    after_results_simp

/-! ## The second aggregation -/

/-- The edges' source column as the first stretch made it: row 0 of the edge list; -/
theorem W1_main_v1 : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results_simp
  rfl

/-- the destination column: row 1. -/
theorem W1_main_v3 : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp
  rfl

/-- Gathering the first layer's output along the edges and adding it up per destination is the reference's second
    aggregation, once the first layer's output is the reference's. -/
theorem host_agg2
    (h : (V2 m ρ c main_v35 : S50000x128.Idx → EReal) = Cert.ReferenceIdeal.Read.val_main_v29 (F := Ideal) (m ((c : Thread nD τ).loc main_arg0))
      (m ((c : Thread nD τ).loc main_arg1)) (m ((c : Thread nD τ).loc main_arg3)) (m ((c : Thread nD τ).loc main_arg4)) (m ((c : Thread nD τ).loc main_arg5))) :
    (V3 m ρ c main_v45 : S50000x128.Idx → EReal) = Cert.ReferenceIdeal.Read.val_main_v39 (F := Ideal) (m ((c : Thread nD τ).loc main_arg0))
      (m ((c : Thread nD τ).loc main_arg1)) (m ((c : Thread nD τ).loc main_arg3)) (m ((c : Thread nD τ).loc main_arg4)) (m ((c : Thread nD τ).loc main_arg5)) := by
  have e1 : W2 m ρ c (Proc.devRef .tc main_v1) = Cert.ReferenceIdeal.Read.val_main_v1 (F := Ideal) (m ((c : Thread nD τ).loc main_arg1)) :=
    (W2_of_ne m ρ c main_v1 (by decide)).trans (W1_main_v1 m ρ c)
  have e3 : W2 m ρ c (Proc.devRef .tc main_v3) = Cert.ReferenceIdeal.Read.val_main_v3 (F := Ideal) (m ((c : Thread nD τ).loc main_arg1)) :=
    (W2_of_ne m ρ c main_v3 (by decide)).trans (W1_main_v3 m ρ c)
  have e35 : W2 m ρ c (Proc.devRef .tc main_v35) = Cert.ReferenceIdeal.Read.val_main_v29 (F := Ideal) (m ((c : Thread nD τ).loc main_arg0))
      (m ((c : Thread nD τ).loc main_arg1)) (m ((c : Thread nD τ).loc main_arg3)) (m ((c : Thread nD τ).loc main_arg4)) (m ((c : Thread nD τ).loc main_arg5)) := h
  show StableHlo.after hostOps1 (W2 m ρ c) (Proc.devRef .tc main_v45) = _
  after_results_simp
  rw [e1, e3, e35]
  rfl

end Host3

end Cert.KernelIdeal.Hand

end
-- ==== Proof.KiHostTail.lean ====
import proofs.«409877_j67551245631640_3_alg».proof.Proof.KiRun
import proofs.«409877_j67551245631640_3_alg».proof.Proof.Gen.ReferenceIdeal.Read
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.ReferenceIdeal.Read (val_main_v19 val_main_v45 val_main_v64 val_main_v67 val_main_v72)

set_option quotPrecheck false

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-! # What the host operations after the second call leave

The pooling tail of the program: the two halves of the second call's output are added, each row is scaled by the
reciprocal of its graph's node count (floored at one), the classifier's matrix product and bias follow, and last the
log-softmax over the two classes. The operations are the reference's own; the statements below read them against the
reference's stage functions. -/

/-- The rewriting of a run of host operations to the composed value, at a hypothesis. -/
macro "after_results_at" h:ident : tactic =>
  `(tactic| simp (disch := decide) only [StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne'] at $h:ident)

/-! ## The reference computes the floored degrees twice -/

/-- Both floored in-degree arrays of the reference are the same term. -/
theorem host_deg_eq : val_main_v45 (F := Ideal) x1 = val_main_v19 x1 := by
  unfold val_main_v45 val_main_v19 Cert.ReferenceIdeal.Read.val_main_v43 Cert.ReferenceIdeal.Read.val_main_v17
    Cert.ReferenceIdeal.Read.val_main_v44 Cert.ReferenceIdeal.Read.val_main_v18
    Cert.ReferenceIdeal.Read.val_main_v41 Cert.ReferenceIdeal.Read.val_main_v15
    Cert.ReferenceIdeal.Read.val_main_v42 Cert.ReferenceIdeal.Read.val_main_v16
    Cert.ReferenceIdeal.Read.val_main_v40 Cert.ReferenceIdeal.Read.val_main_v14
    Cert.ReferenceIdeal.Read.val_main_cst_7 Cert.ReferenceIdeal.Read.val_main_cst_1
    Cert.ReferenceIdeal.Read.val_main_cst_8 Cert.ReferenceIdeal.Read.val_main_cst_2
    Cert.ReferenceIdeal.Read.val_main_cst_9 Cert.ReferenceIdeal.Read.val_main_cst_3
  rfl

/-! ## Arguments and carried buffers at the second call's end -/

/-- The classifier's matrix is still the argument after the second call. -/
theorem W4_main_arg9 : W4 m ρ c (Proc.devRef .tc main_arg9) = x9 := by
  rw [← W6_main_arg9 m ρ c]
  symm
  show StableHlo.after hostOps2_1 (StableHlo.after hostOps2 (W4 m ρ c)) (Proc.devRef .tc main_arg9) = _
  after_results_simp

/-- The classifier's bias is still the argument after the second call. -/
theorem W4_main_arg10 : W4 m ρ c (Proc.devRef .tc main_arg10) = x10 := by
  rw [← W6_main_arg10 m ρ c]
  symm
  show StableHlo.after hostOps2_1 (StableHlo.after hostOps2 (W4 m ρ c)) (Proc.devRef .tc main_arg10) = _
  after_results_simp

/-- Row `g` of the reciprocal-count column the first host stretch writes: one over the floored node count of graph
    `g`, the count being the reference's own term. -/
theorem W1_main_v21 (g : Fin 256) :
    (W1 m ρ c (Proc.devRef .tc main_v21) : S256x1.Idx → EReal) (ValueIdx.ix2 g (0 : Fin 1))
      = Ideal.div (Ideal.ofBits .f32 0x3F800000#32) (val_main_v64 x2 (ValueIdx.ix1 g)) := by
  show StableHlo.after hostOps0 (W0 m ρ c) (Proc.devRef .tc main_v21) (ValueIdx.ix2 g (0 : Fin 1)) = _
  after_results_simp
  refine (shapeCast_apply _ shapeCasts_S256_S256x1 (ValueIdx.ix2 g (0 : Fin 1)) (ValueIdx.ix1 g) (by
    rw [Shape.rowMajor_val_two, Shape.rowMajor_val_one]; show g.val = g.val * 1 + 0; omega)).trans ?_
  unfold Host.divf
  rw [Ideal.hostDivf_def]
  refine congrArg₂ Ideal.div ?_ (congrFun (?_ : _ = val_main_v64 x2) _)
  · rfl
  · unfold val_main_v64 Cert.ReferenceIdeal.Read.val_main_v62 Cert.ReferenceIdeal.Read.val_main_v63
      Cert.ReferenceIdeal.Read.val_main_v61 Cert.ReferenceIdeal.Read.val_main_v60 Cert.ReferenceIdeal.Read.val_main_v59
      Cert.ReferenceIdeal.Read.val_main_cst_11 Cert.ReferenceIdeal.Read.val_main_cst_12 Cert.ReferenceIdeal.Read.val_main_cst_13
    rfl

/-- Neither call and no host operation in between writes the reciprocal-count column. -/
theorem W4_main_v21 : W4 m ρ c (Proc.devRef .tc main_v21) = W1 m ρ c (Proc.devRef .tc main_v21) := by
  have e1 : W4 m ρ c (Proc.devRef .tc main_v21) = W3 m ρ c (Proc.devRef .tc main_v21) := W4_of_ne m ρ c main_v21 (by decide)
  have e2 : W3 m ρ c (Proc.devRef .tc main_v21) = W2 m ρ c (Proc.devRef .tc main_v21) := by
    show StableHlo.after hostOps1 (W2 m ρ c) (Proc.devRef .tc main_v21) = _
    after_results_simp
  have e3 : W2 m ρ c (Proc.devRef .tc main_v21) = W1 m ρ c (Proc.devRef .tc main_v21) := W2_of_ne m ρ c main_v21 (by decide)
  exact e1.trans (e2.trans e3)

/-! ## The pooled means -/

/-- The two halves of a 2 × 256 × 128 array added and scaled row by row, read at `(g, f)`: the sum of the halves'
    elements `(g, f)` times the column's element `g`. -/
theorem halves_scaled_apply (X : S2x256x128.Idx → EReal) (R : S256x1.Idx → EReal) (g : Fin 256) (f : Fin 128) :
    mulf (F := Ideal) (φ := .f32)
        (addf (F := Ideal) (φ := .f32)
          (shapeCast S256x128 (extractStridedSlice S1x256x128 ![0, 0, 0] X slices_S2x256x128_S1x256x128_0_0_0) shapeCasts_S1x256x128_S256x128)
          (shapeCast S256x128 (extractStridedSlice S1x256x128 ![1, 0, 0] X slices_S2x256x128_S1x256x128_1_0_0) shapeCasts_S1x256x128_S256x128))
        (broadcastInDim S256x128 ![0, 1] bcast_S256x1_S256x128_0_1 R) (ValueIdx.ix2 g f)
      = (X (ValueIdx.ix3 (0 : Fin 2) g f) + X (ValueIdx.ix3 (1 : Fin 2) g f)) * R (ValueIdx.ix2 g (0 : Fin 1)) := by
  rw [ValueIdx.mulf_apply, ValueIdx.addf_apply, ValueIdx.shapeCast_1ab_ab_apply, ValueIdx.shapeCast_1ab_ab_apply]
  refine congrArg₂ (· * ·) (congrArg₂ (· + ·) ?_ ?_) ?_
  · exact extractStridedSlice_apply _ X _ _ _ (fun a => match a with
      | ⟨0, _⟩ => rfl
      | ⟨1, _⟩ => by show g.val = 0 + g.val; omega
      | ⟨2, _⟩ => by show f.val = 0 + f.val; omega)
  · exact extractStridedSlice_apply _ X _ _ _ (fun a => match a with
      | ⟨0, _⟩ => rfl
      | ⟨1, _⟩ => by show g.val = 0 + g.val; omega
      | ⟨2, _⟩ => by show f.val = 0 + f.val; omega)
  · exact broadcastInDim_apply _ _ R _ _ (fun a => match a with
      | ⟨0, _⟩ => by show g.val = if (256 : Nat) = 1 then 0 else g.val; rw [if_neg (by decide)]
      | ⟨1, _⟩ => rfl)

/-- Element `(g, f)` of the scaled pooled sums: the two halves of the second call's output at `(g, f)`, added, times
    one over the floored node count of graph `g`. -/
theorem host_pooled (P : S2x256x128.Idx → EReal) (hP : V4 m ρ c main_v46 = P) (g : Fin 256) (f : Fin 128) :
    (W5 m ρ c (Proc.devRef .tc main_v53) : S256x128.Idx → EReal) (ValueIdx.ix2 g f)
      = (P (ValueIdx.ix3 (0 : Fin 2) g f) + P (ValueIdx.ix3 (1 : Fin 2) g f))
        * Ideal.div (Ideal.ofBits .f32 0x3F800000#32) (val_main_v64 x2 (ValueIdx.ix1 g)) := by
  subst hP
  show StableHlo.after hostOps2 (W4 m ρ c) (Proc.devRef .tc main_v53) (ValueIdx.ix2 g f) = _
  after_results_simp
  refine (halves_scaled_apply (W4 m ρ c (Proc.devRef .tc main_v46)) (W4 m ρ c (Proc.devRef .tc main_v21)) g f).trans ?_
  rw [W4_main_v21, W1_main_v21]

/-! ## The classifier and the log-softmax -/

/-- Once the scaled pooled sums are the reference's pooled means, the program's result is the reference's: the matrix
    product with the classifier's weights, the bias and the log-softmax are the same operations on both sides. -/
theorem host_tail
    (h : (W5 m ρ c (Proc.devRef .tc main_v53) : S256x128.Idx → EReal) = val_main_v67 x0 x1 x2 x3 x4 x5 x6 x7 x8) :
    (W6 m ρ c (Proc.devRef .tc main_v58) : S256x2.Idx → EReal) = val_main_v72 x0 x1 x2 x3 x4 x5 x6 x7 x8 x9 x10 := by
  show StableHlo.after hostOps2_1 (StableHlo.after hostOps2 (W4 m ρ c)) (Proc.devRef .tc main_v58) = _
  have h' : StableHlo.after hostOps2 (W4 m ρ c) (Proc.devRef .tc main_v53) = val_main_v67 x0 x1 x2 x3 x4 x5 x6 x7 x8 := h
  after_results_at h'
  after_results_simp
  rw [h', W4_main_arg9, W4_main_arg10]
  unfold val_main_v72 Cert.ReferenceIdeal.Read.val_main_call2_v10 Cert.ReferenceIdeal.Read.val_main_call2_v9
    Cert.ReferenceIdeal.Read.val_main_call2_v8 Cert.ReferenceIdeal.Read.val_main_call2_v7 Cert.ReferenceIdeal.Read.val_main_call2_v6
    Cert.ReferenceIdeal.Read.val_main_call2_v5 Cert.ReferenceIdeal.Read.val_main_call2_v4 Cert.ReferenceIdeal.Read.val_main_call2_v3
    Cert.ReferenceIdeal.Read.val_main_call2_v2 Cert.ReferenceIdeal.Read.val_main_call2_v1 Cert.ReferenceIdeal.Read.val_main_call2_v0
    Cert.ReferenceIdeal.Read.val_main_call2_cst Cert.ReferenceIdeal.Read.val_main_call2_cst_0 Cert.ReferenceIdeal.Read.val_main_call2_cst_1
    Cert.ReferenceIdeal.Read.val_main_v71 Cert.ReferenceIdeal.Read.val_main_v70 Cert.ReferenceIdeal.Read.val_main_v69
    Cert.ReferenceIdeal.Read.val_main_v68
  rfl

end Cert.KernelIdeal.Hand

end
-- ==== Proof.LibRecip.lean ====
import Idealize.ShloMosaic.PureOps.Ideal
import Idealize.ShloMosaic.PureOps.Ideal.Laws

noncomputable section

/-! # Scaling by a reciprocal against dividing, on the extended reals

A mean is written two ways: the sum times `1 / max (count, 1)`, or the sum divided by `max (count, 1)`. On the
extended reals the two agree whenever the divisor is at least one — also when it is `+∞`, where both are `0`, and
whatever the sum is: no finiteness is needed. -/

namespace Cert.LibRecip

open Idealize.ShloMosaic

/-- The single-precision pattern of `1.0` denotes the real one. -/
theorem ofBits_one_f32 : Ideal.ofBits .f32 0x3F800000#32 = 1 := by
  simp [Ideal.ofBits, Ideal.ieee, -EReal.coe_mul]; norm_num

/-- A divisor that is at least one is not zero. -/
theorem ne_zero_of_one_le {y : EReal} (hy : 1 ≤ y) : y ≠ 0 :=
  ne_of_gt (lt_of_lt_of_le zero_lt_one hy)

/-- `x · (1 / y) = x / y` for `1 ≤ y`: both are `x · y⁻¹`. -/
theorem mul_one_div {x y : EReal} (hy : 1 ≤ y) : x * Ideal.div 1 y = Ideal.div x y := by
  have h := ne_zero_of_one_le hy
  unfold Ideal.div
  rw [if_neg h, if_neg h, one_mul]

/-- The same with the numerator and the floor spelled as the pattern of `1.0`, as both programs print them. -/
theorem mul_recip_max (x d : EReal) :
    x * Ideal.div (Ideal.ofBits .f32 0x3F800000#32) (max d (Ideal.ofBits .f32 0x3F800000#32))
      = Ideal.div x (max d (Ideal.ofBits .f32 0x3F800000#32)) := by
  rw [ofBits_one_f32]
  exact mul_one_div (le_max_right d 1)

end Cert.LibRecip

end
-- ==== Proof.LayerBridge.lean ====
import proofs.«409877_j67551245631640_3_alg».proof.Proof.KiSpec
import proofs.«409877_j67551245631640_3_alg».proof.Proof.LibRecip
import proofs.«409877_j67551245631640_3_alg».proof.Proof.Gen.ReferenceIdeal.Read
import Idealize.ShloMosaic.Lib.ValueIdx
import Idealize.ShloMosaic.PureOps.Ideal.Laws

noncomputable section

/-! # The reference's two dense layers are the kernel-side layer function

Each layer of the reference divides a node's neighbour sum by `max (degree, 1)`, contracts the quotient with the
first weight matrix, adds the node's own row contracted with the second weight matrix, adds the bias, and clamps at
zero. The kernel-side function `layerAt` scales the neighbour sum by the column `1 / max (degree, 1)` before the
first contraction instead. Entry by entry the two agree: a divisor that is at least one is not zero, so multiplying
by its reciprocal is dividing by it, whatever the numerator.

The module has three parts: the kernel-side function with the reciprocal turned into a division (over abstract
arrays, used for both layers); each layer of the reference read at an index `(n, f)` as one closed expression in the
arrays it depends on; and the two equations between them. -/

namespace Cert.Bridge

open Idealize.ShloMosaic Cert.ReferenceIdeal Cert.ReferenceIdeal.Read
open Cert.KernelIdeal.Hand (layerAt nodeOf ind poolAt)

namespace Layer

/-! ## The kernel-side layer with the reciprocal column turned into a division -/

/-- If the column `dinv` holds `1 / max (deg n, 1)` at node `n`, the layer function divides each entry of the node's
    neighbour sum by `max (deg n, 1)`. The arrays are arbitrary; nothing is assumed finite. -/
theorem layerAt_of_recip (agg x : S50000x128.Idx → EReal) (dinv : S50000x1.Idx → EReal) (wl wr : S128x128.Idx → EReal)
    (brow : S1x128.Idx → EReal) (deg : S50000.Idx → EReal)
    (hdinv : ∀ n : Fin 50000, dinv (ValueIdx.ix2 n (0 : Fin 1))
      = Ideal.div (Ideal.ofBits .f32 0x3F800000#32) (max (deg (ValueIdx.ix1 n)) (Ideal.ofBits .f32 0x3F800000#32)))
    (n : Fin 50000) (f : Fin 128) :
    layerAt agg x dinv wl wr brow n f
      = max (((∑ k : Fin 128, Ideal.div (agg (ValueIdx.ix2 n k)) (max (deg (ValueIdx.ix1 n)) (Ideal.ofBits .f32 0x3F800000#32)) * wl (ValueIdx.ix2 k f))
          + ∑ k : Fin 128, x (ValueIdx.ix2 n k) * wr (ValueIdx.ix2 k f)) + brow (ValueIdx.ix2 (0 : Fin 1) f))
          (Ideal.ofBits .f32 0x00000000#32) := by
  unfold layerAt
  rw [hdinv n]
  simp only [Cert.LibRecip.mul_recip_max]

/-! ## Where the reference's layout operations read: the composed index maps at `(n, f)`

Both contractions of a layer read the left operand at `(n, k)` and the weight at `(k, f)`; the divisor is the
degree vector spread along the feature axis, through a column; the bias is spread along the node axis, through a row. -/

-- the first layer
theorem lidx23 (n : Fin 50000) (f k : Fin 128) : lidx_main_v23 (ValueIdx.ix2 n f) k = ValueIdx.ix2 n k :=
  funext fun a => Fin.ext (by match a with | ⟨0, _⟩ => rfl | ⟨1, _⟩ => rfl)
theorem ridx23 (n : Fin 50000) (f k : Fin 128) : ridx_main_v23 (ValueIdx.ix2 n f) k = ValueIdx.ix2 k f :=
  funext fun a => Fin.ext (by match a with | ⟨0, _⟩ => rfl | ⟨1, _⟩ => rfl)
theorem lidx24 (n : Fin 50000) (f k : Fin 128) : lidx_main_v24 (ValueIdx.ix2 n f) k = ValueIdx.ix2 n k :=
  funext fun a => Fin.ext (by match a with | ⟨0, _⟩ => rfl | ⟨1, _⟩ => rfl)
theorem ridx24 (n : Fin 50000) (f k : Fin 128) : ridx_main_v24 (ValueIdx.ix2 n f) k = ValueIdx.ix2 k f :=
  funext fun a => Fin.ext (by match a with | ⟨0, _⟩ => rfl | ⟨1, _⟩ => rfl)
theorem idx21 (n : Fin 50000) (k : Fin 128) : idx_main_v21 (ValueIdx.ix2 n k) = ValueIdx.ix2 n (0 : Fin 1) :=
  funext fun a => Fin.ext (by match a with | ⟨0, _⟩ => rfl | ⟨1, _⟩ => rfl)
theorem idx20 (n : Fin 50000) : idx_main_v20 (ValueIdx.ix2 n (0 : Fin 1)) = ValueIdx.ix1 n :=
  funext fun a => Fin.ext (by match a with | ⟨0, _⟩ => rfl)
theorem idx27 (n : Fin 50000) (f : Fin 128) : idx_main_v27 (ValueIdx.ix2 n f) = ValueIdx.ix2 (0 : Fin 1) f :=
  funext fun a => Fin.ext (by match a with | ⟨0, _⟩ => rfl | ⟨1, _⟩ => rfl)
theorem idx26 (f : Fin 128) : idx_main_v26 (ValueIdx.ix2 (0 : Fin 1) f) = ValueIdx.ix1 f :=
  funext fun a => Fin.ext (by match a with | ⟨0, _⟩ => rfl)

-- the second layer
theorem lidx49 (n : Fin 50000) (f k : Fin 128) : lidx_main_v49 (ValueIdx.ix2 n f) k = ValueIdx.ix2 n k :=
  funext fun a => Fin.ext (by match a with | ⟨0, _⟩ => rfl | ⟨1, _⟩ => rfl)
theorem ridx49 (n : Fin 50000) (f k : Fin 128) : ridx_main_v49 (ValueIdx.ix2 n f) k = ValueIdx.ix2 k f :=
  funext fun a => Fin.ext (by match a with | ⟨0, _⟩ => rfl | ⟨1, _⟩ => rfl)
theorem lidx50 (n : Fin 50000) (f k : Fin 128) : lidx_main_v50 (ValueIdx.ix2 n f) k = ValueIdx.ix2 n k :=
  funext fun a => Fin.ext (by match a with | ⟨0, _⟩ => rfl | ⟨1, _⟩ => rfl)
theorem ridx50 (n : Fin 50000) (f k : Fin 128) : ridx_main_v50 (ValueIdx.ix2 n f) k = ValueIdx.ix2 k f :=
  funext fun a => Fin.ext (by match a with | ⟨0, _⟩ => rfl | ⟨1, _⟩ => rfl)
theorem idx47 (n : Fin 50000) (k : Fin 128) : idx_main_v47 (ValueIdx.ix2 n k) = ValueIdx.ix2 n (0 : Fin 1) :=
  funext fun a => Fin.ext (by match a with | ⟨0, _⟩ => rfl | ⟨1, _⟩ => rfl)
theorem idx46 (n : Fin 50000) : idx_main_v46 (ValueIdx.ix2 n (0 : Fin 1)) = ValueIdx.ix1 n :=
  funext fun a => Fin.ext (by match a with | ⟨0, _⟩ => rfl)
theorem idx53 (n : Fin 50000) (f : Fin 128) : idx_main_v53 (ValueIdx.ix2 n f) = ValueIdx.ix2 (0 : Fin 1) f :=
  funext fun a => Fin.ext (by match a with | ⟨0, _⟩ => rfl | ⟨1, _⟩ => rfl)
theorem idx52 (f : Fin 128) : idx_main_v52 (ValueIdx.ix2 (0 : Fin 1) f) = ValueIdx.ix1 f :=
  funext fun a => Fin.ext (by match a with | ⟨0, _⟩ => rfl)

/-! ## The floored degree, as a maximum -/

/-- The first layer's divisor at node `n` is `max (degree, 1)`. -/
theorem floored_deg1 (x1 : S2x800000.Idx → BitVec 32) (n : Fin 50000) :
    val_main_v19 (F := Ideal) x1 (ValueIdx.ix1 n)
      = max (val_main_v17 (F := Ideal) x1 (ValueIdx.ix1 n)) (Ideal.ofBits .f32 0x3F800000#32) := by
  rw [val_main_v19_apply, val_main_v18_apply, val_main_cst_3_apply, Ideal.maximumf_def, Ideal.ofBits_def]

/-- The second layer's divisor at node `n` is `max (degree, 1)`. -/
theorem floored_deg2 (x1 : S2x800000.Idx → BitVec 32) (n : Fin 50000) :
    val_main_v45 (F := Ideal) x1 (ValueIdx.ix1 n)
      = max (val_main_v43 (F := Ideal) x1 (ValueIdx.ix1 n)) (Ideal.ofBits .f32 0x3F800000#32) := by
  rw [val_main_v45_apply, val_main_v44_apply, val_main_cst_9_apply, Ideal.maximumf_def, Ideal.ofBits_def]

/-! ## Each layer of the reference at an index -/

/-- The first layer of the reference at `(n, f)`: the neighbour sum over the floored degree, contracted with the first
    weight; plus the node's input row contracted with the second; plus the bias; clamped at zero. -/
theorem ref_layer1 (x0 : S50000x128.Idx → EReal) (x1 : S2x800000.Idx → BitVec 32) (x3 x4 : S128x128.Idx → EReal) (x5 : S128.Idx → EReal)
    (n : Fin 50000) (f : Fin 128) :
    val_main_v29 (F := Ideal) x0 x1 x3 x4 x5 (ValueIdx.ix2 n f)
      = max (((∑ k : Fin 128, Ideal.div (val_main_v13 (F := Ideal) x0 x1 (ValueIdx.ix2 n k))
                (max (val_main_v17 (F := Ideal) x1 (ValueIdx.ix1 n)) (Ideal.ofBits .f32 0x3F800000#32)) * x3 (ValueIdx.ix2 k f))
          + ∑ k : Fin 128, x0 (ValueIdx.ix2 n k) * x4 (ValueIdx.ix2 k f)) + x5 (ValueIdx.ix1 f))
          (Ideal.ofBits .f32 0x00000000#32) := by
  -- a term of the first contraction: the quotient at (n, k) times the weight at (k, f)
  have e1 : ∀ k : Fin 128, val_main_v22 (F := Ideal) x0 x1 (lidx_main_v23 (ValueIdx.ix2 n f) k) * x3 (ridx_main_v23 (ValueIdx.ix2 n f) k)
      = Ideal.div (val_main_v13 (F := Ideal) x0 x1 (ValueIdx.ix2 n k))
          (max (val_main_v17 (F := Ideal) x1 (ValueIdx.ix1 n)) (Ideal.ofBits .f32 0x3F800000#32)) * x3 (ValueIdx.ix2 k f) := by
    intro k
    rw [lidx23, ridx23, val_main_v22_apply, val_main_v21_apply, idx21, val_main_v20_apply, idx20, floored_deg1,
      Ideal.hostDivf_def]
  -- a term of the second contraction
  have e2 : ∀ k : Fin 128, x0 (lidx_main_v24 (ValueIdx.ix2 n f) k) * x4 (ridx_main_v24 (ValueIdx.ix2 n f) k)
      = x0 (ValueIdx.ix2 n k) * x4 (ValueIdx.ix2 k f) := by
    intro k
    rw [lidx24, ridx24]
  rw [val_main_v29_apply, val_main_v28_apply, val_main_v25_apply, val_main_v23_apply, val_main_v24_apply,
    val_main_v27_apply, val_main_v26_apply, val_main_call0_v0_apply, val_main_call0_cst_apply, idx27, idx26,
    Finset.sum_congr rfl fun k _ => e1 k, Finset.sum_congr rfl fun k _ => e2 k,
    Ideal.maximumf_def, Ideal.addf_def, Ideal.addf_def, Ideal.ofBits_def]

/-- The second layer of the reference at `(n, f)`: the same expression in the second neighbour sum, the first layer's
    output, the second layer's weights and bias. -/
theorem ref_layer2 (x0 : S50000x128.Idx → EReal) (x1 : S2x800000.Idx → BitVec 32) (x3 x4 : S128x128.Idx → EReal) (x5 : S128.Idx → EReal)
    (x6 x7 : S128x128.Idx → EReal) (x8 : S128.Idx → EReal) (n : Fin 50000) (f : Fin 128) :
    val_main_v55 (F := Ideal) x0 x1 x3 x4 x5 x6 x7 x8 (ValueIdx.ix2 n f)
      = max (((∑ k : Fin 128, Ideal.div (val_main_v39 (F := Ideal) x0 x1 x3 x4 x5 (ValueIdx.ix2 n k))
                (max (val_main_v43 (F := Ideal) x1 (ValueIdx.ix1 n)) (Ideal.ofBits .f32 0x3F800000#32)) * x6 (ValueIdx.ix2 k f))
          + ∑ k : Fin 128, val_main_v29 (F := Ideal) x0 x1 x3 x4 x5 (ValueIdx.ix2 n k) * x7 (ValueIdx.ix2 k f)) + x8 (ValueIdx.ix1 f))
          (Ideal.ofBits .f32 0x00000000#32) := by
  have e1 : ∀ k : Fin 128, val_main_v48 (F := Ideal) x0 x1 x3 x4 x5 (lidx_main_v49 (ValueIdx.ix2 n f) k) * x6 (ridx_main_v49 (ValueIdx.ix2 n f) k)
      = Ideal.div (val_main_v39 (F := Ideal) x0 x1 x3 x4 x5 (ValueIdx.ix2 n k))
          (max (val_main_v43 (F := Ideal) x1 (ValueIdx.ix1 n)) (Ideal.ofBits .f32 0x3F800000#32)) * x6 (ValueIdx.ix2 k f) := by
    intro k
    rw [lidx49, ridx49, val_main_v48_apply, val_main_v47_apply, idx47, val_main_v46_apply, idx46, floored_deg2,
      Ideal.hostDivf_def]
  have e2 : ∀ k : Fin 128, val_main_v29 (F := Ideal) x0 x1 x3 x4 x5 (lidx_main_v50 (ValueIdx.ix2 n f) k) * x7 (ridx_main_v50 (ValueIdx.ix2 n f) k)
      = val_main_v29 (F := Ideal) x0 x1 x3 x4 x5 (ValueIdx.ix2 n k) * x7 (ValueIdx.ix2 k f) := by
    intro k
    rw [lidx50, ridx50]
  rw [val_main_v55_apply, val_main_v54_apply, val_main_v51_apply, val_main_v49_apply, val_main_v50_apply,
    val_main_v53_apply, val_main_v52_apply, val_main_call1_v0_apply, val_main_call1_cst_apply, idx53, idx52,
    Finset.sum_congr rfl fun k _ => e1 k, Finset.sum_congr rfl fun k _ => e2 k,
    Ideal.maximumf_def, Ideal.addf_def, Ideal.addf_def, Ideal.ofBits_def]

end Layer

/-! ## The two layers -/

/-- The first layer: the kernel-side function of the first neighbour sum, the input rows, the reciprocal column of the
    floored degree, the first layer's weights and its bias row is the reference's first layer, entry by entry. -/
theorem layer1_bridge (x0 : S50000x128.Idx → EReal) (x1 : S2x800000.Idx → BitVec 32) (x3 x4 : S128x128.Idx → EReal) (x5 : S128.Idx → EReal)
    (dinv : S50000x1.Idx → EReal)
    (hdinv : ∀ n : Fin 50000, dinv (ValueIdx.ix2 n (0 : Fin 1)) = Ideal.div (Ideal.ofBits .f32 0x3F800000#32) (val_main_v19 (F := Ideal) x1 (ValueIdx.ix1 n)))
    (brow : S1x128.Idx → EReal) (hb : ∀ f : Fin 128, brow (ValueIdx.ix2 (0 : Fin 1) f) = x5 (ValueIdx.ix1 f))
    (n : Fin 50000) (f : Fin 128) :
    layerAt (val_main_v13 (F := Ideal) x0 x1) x0 dinv x3 x4 brow n f = val_main_v29 (F := Ideal) x0 x1 x3 x4 x5 (ValueIdx.ix2 n f) := by
  have hd : ∀ n : Fin 50000, dinv (ValueIdx.ix2 n (0 : Fin 1))
      = Ideal.div (Ideal.ofBits .f32 0x3F800000#32) (max (val_main_v17 (F := Ideal) x1 (ValueIdx.ix1 n)) (Ideal.ofBits .f32 0x3F800000#32)) := by
    intro n
    rw [hdinv n, Layer.floored_deg1]
  refine (Layer.layerAt_of_recip (val_main_v13 (F := Ideal) x0 x1) x0 dinv x3 x4 brow (val_main_v17 (F := Ideal) x1) hd n f).trans ?_
  rw [Layer.ref_layer1, hb f]

/-- The second layer: the same with the second neighbour sum, the first layer's output as the rows, the second
    layer's weights and its bias row. -/
theorem layer2_bridge (x0 : S50000x128.Idx → EReal) (x1 : S2x800000.Idx → BitVec 32) (x3 x4 : S128x128.Idx → EReal) (x5 : S128.Idx → EReal)
    (x6 x7 : S128x128.Idx → EReal) (x8 : S128.Idx → EReal)
    (dinv : S50000x1.Idx → EReal)
    (hdinv : ∀ n : Fin 50000, dinv (ValueIdx.ix2 n (0 : Fin 1)) = Ideal.div (Ideal.ofBits .f32 0x3F800000#32) (val_main_v45 (F := Ideal) x1 (ValueIdx.ix1 n)))
    (brow : S1x128.Idx → EReal) (hb : ∀ f : Fin 128, brow (ValueIdx.ix2 (0 : Fin 1) f) = x8 (ValueIdx.ix1 f))
    (n : Fin 50000) (f : Fin 128) :
    layerAt (val_main_v39 (F := Ideal) x0 x1 x3 x4 x5) (val_main_v29 (F := Ideal) x0 x1 x3 x4 x5) dinv x6 x7 brow n f
      = val_main_v55 (F := Ideal) x0 x1 x3 x4 x5 x6 x7 x8 (ValueIdx.ix2 n f) := by
  have hd : ∀ n : Fin 50000, dinv (ValueIdx.ix2 n (0 : Fin 1))
      = Ideal.div (Ideal.ofBits .f32 0x3F800000#32) (max (val_main_v43 (F := Ideal) x1 (ValueIdx.ix1 n)) (Ideal.ofBits .f32 0x3F800000#32)) := by
    intro n
    rw [hdinv n, Layer.floored_deg2]
  refine (Layer.layerAt_of_recip (val_main_v39 (F := Ideal) x0 x1 x3 x4 x5) (val_main_v29 (F := Ideal) x0 x1 x3 x4 x5) dinv x6 x7 brow
    (val_main_v43 (F := Ideal) x1) hd n f).trans ?_
  rw [Layer.ref_layer2, hb f]

end Cert.Bridge

end
-- ==== Proof.PoolBridge.lean ====
import proofs.«409877_j67551245631640_3_alg».proof.Proof.KiSpec
import proofs.«409877_j67551245631640_3_alg».proof.Proof.LibRecip
import proofs.«409877_j67551245631640_3_alg».proof.Proof.Gen.ReferenceIdeal.Read
import Idealize.ShloMosaic.Lib.ValueIdx
import Idealize.ShloMosaic.PureOps.Ideal.Laws

noncomputable section

namespace Cert.Bridge

open Idealize.ShloMosaic Cert.ReferenceIdeal Cert.ReferenceIdeal.Read
open Cert.KernelIdeal.Hand (layerAt nodeOf ind poolAt)

/-! # The segment sum over graphs is a double sum of one-hot-masked rows

The reference adds row `n` of a 50000 × 128 array into row `x2[n]` of a zero 256 × 128 array. Element `(g, f)` of the
result is therefore the sum of the elements `(n, f)` over the nodes `n` whose graph id is `g`: the sum over all nodes
of the row's element times the indicator of `x2[n] = g`. Splitting a node number into half, block and row gives the
triple sum the other side forms. -/

namespace Pool

/-- The dimension numbers of the segment sum: the update's axis 1 is the window, the operand's axis 0 is indexed. -/
abbrev dP := scatter_S256x128_S50000x1_S50000x128_1_0_0_1

/-! ## Where an update element lands -/

/-- The index at which update element `j` reads its start index: row `j 0` of the one-column index array. -/
theorem siIdx_eq (j : S50000x128.Idx) (c : Fin dP.scatterDimsToOperandDims.length) :
    dP.siIdx j c = ValueIdx.ix2 (j 0) (0 : Fin 1) := by
  funext b
  match b with
  | ⟨0, _⟩ => rfl
  | ⟨1, _⟩ =>
    refine Fin.ext ?_
    show c.val = 0
    have : c.val < 1 := c.isLt
    omega

/-- On the graph axis the window starts at the graph id, read signed. -/
theorem start_zero (j : S50000x128.Idx) (idx : IVec S50000x1 32) :
    dP.start j idx 0 = (idx (ValueIdx.ix2 (j 0) (0 : Fin 1))).toInt := by
  show (idx (dP.siIdx j _)).toInt = _
  rw [siIdx_eq]
  rfl

/-- A 32-bit word reads, signed, as a natural below 256 exactly when it is that natural's word. -/
theorem toInt_eq_iff (b : BitVec 32) (g : Fin 256) : b.toInt = (g.val : Int) ↔ b = BitVec.ofNat 32 g.val := by
  have hg : g.val < 256 := g.isLt
  have hb : b.toNat < 2 ^ 32 := b.isLt
  constructor
  · intro h
    apply BitVec.eq_of_toNat_eq
    rw [BitVec.toNat_ofNat, Nat.mod_eq_of_lt (by omega)]
    rw [BitVec.toInt_eq_toNat_cond] at h
    split at h <;> omega
  · intro h
    subst h
    rw [BitVec.toInt_eq_toNat_cond, BitVec.toNat_ofNat, Nat.mod_eq_of_lt (by omega)]
    split <;> omega

/-- Update element `j` lands on `(g, f)` exactly when its row's graph id reads as `g` and its column is `f`. -/
theorem resultIdx_iff (j : S50000x128.Idx) (idx : IVec S50000x1 32) (g : Fin 256) (f : Fin 128) :
    dP.resultIdx? j idx = some (ValueIdx.ix2 g f) ↔
      idx (ValueIdx.ix2 (j 0) (0 : Fin 1)) = BitVec.ofNat 32 g.val ∧ j 1 = f := by
  rw [← toInt_eq_iff]
  have hs0 := start_zero j idx
  have hs1 : dP.start j idx 1 = 0 := rfl
  have hw0 : dP.window j 0 = 0 := rfl
  have hw1 : dP.window j 1 = (j 1).val := rfl
  have hj1 : (j 1).val < 128 := (j 1).isLt
  have hg : g.val < 256 := g.isLt
  have hf : f.val < 128 := f.isLt
  unfold ScatterDims.resultIdx?
  split
  · rename_i h
    rw [Option.some.injEq]
    constructor
    · intro he
      have e0 : (dP.start j idx 0 + (dP.window j 0 : Int)).toNat = g.val := congrArg (fun k => (k 0).val) he
      have e1 : (dP.start j idx 1 + (dP.window j 1 : Int)).toNat = f.val := congrArg (fun k => (k 1).val) he
      have h0 : 0 ≤ dP.start j idx 0 + (dP.window j 0 : Int) := (h 0).1
      rw [hs0, hw0] at e0 h0
      rw [hs1, hw1] at e1
      refine ⟨by omega, Fin.ext (by omega)⟩
    · rintro ⟨h1, h2⟩
      have h2' : (j 1).val = f.val := congrArg Fin.val h2
      funext a
      match a with
      | ⟨0, _⟩ =>
        refine Fin.ext ?_
        show (dP.start j idx 0 + (dP.window j 0 : Int)).toNat = g.val
        rw [hs0, hw0]; omega
      | ⟨1, _⟩ =>
        refine Fin.ext ?_
        show (dP.start j idx 1 + (dP.window j 1 : Int)).toNat = f.val
        rw [hs1, hw1]; omega
  · rename_i h
    constructor
    · intro he; cases he
    · rintro ⟨h1, h2⟩
      exfalso
      apply h
      intro a
      match a with
      | ⟨0, _⟩ =>
        show 0 ≤ dP.start j idx 0 + (dP.window j 0 : Int) ∧ dP.start j idx 0 + (dP.window j 0 : Int) < ((256 : Nat) : Int)
        rw [hs0, hw0]; omega
      | ⟨1, _⟩ =>
        show 0 ≤ dP.start j idx 1 + (dP.window j 1 : Int) ∧ dP.start j idx 1 + (dP.window j 1 : Int) < ((128 : Nat) : Int)
        rw [hs1, hw1]; omega

/-! ## The segment sum as a sum over nodes -/

/-- The broadcast column of graph ids, read at row `n`, is node `n`'s graph id. -/
theorem ids_apply (x2 : S50000.Idx → BitVec 32) (n : Fin 50000) :
    val_main_v57 (F := Ideal) x2 (ValueIdx.ix2 n (0 : Fin 1)) = x2 (ValueIdx.ix1 n) := by
  rw [val_main_v57_apply]
  congr 1
  funext a
  match a with
  | ⟨0, _⟩ => rfl

/-- Element `(g, f)` of the segment sum: over all nodes, the indicator of the node's graph id being `g` times the
    node's element `f`. -/
theorem pool_nodes (H : S50000x128.Idx → EReal) (x2 : S50000.Idx → BitVec 32) (g : Fin 256) (f : Fin 128) :
    Host.scatterAdd (F := Ideal) (φ := .f32) dP (val_main_v56 (F := Ideal)) (val_main_v57 (F := Ideal) x2) H (ValueIdx.ix2 g f)
      = ∑ n : Fin 50000, ind (x2 (ValueIdx.ix1 n)) g * H (ValueIdx.ix2 n f) := by
  show val_main_v56 (F := Ideal) (ValueIdx.ix2 g f)
      + ∑ j ∈ Finset.univ.filter (fun j => dP.resultIdx? j (val_main_v57 (F := Ideal) x2) = some (ValueIdx.ix2 g f)), H j = _
  rw [val_main_v56_apply, val_main_cst_10_apply, Ideal.ofBits_def, Ideal.ofBits_zero_f32, zero_add, Finset.sum_filter,
    ValueIdx.sum_idx2]
  refine Finset.sum_congr rfl fun n _ => ?_
  have hp : ∀ f' : Fin 128, (dP.resultIdx? (ValueIdx.ix2 n f') (val_main_v57 (F := Ideal) x2) = some (ValueIdx.ix2 g f))
      ↔ (x2 (ValueIdx.ix1 n) = BitVec.ofNat 32 g.val ∧ f' = f) := by
    intro f'
    rw [resultIdx_iff]
    show val_main_v57 (F := Ideal) x2 (ValueIdx.ix2 n (0 : Fin 1)) = _ ∧ f' = f ↔ _
    rw [ids_apply]
  simp only [hp]
  unfold ind
  by_cases hA : x2 (ValueIdx.ix1 n) = BitVec.ofNat 32 g.val
  · simp only [hA, true_and, if_true, one_mul]
    rw [Finset.sum_ite_eq']
    simp only [Finset.mem_univ, if_true]
  · simp only [hA, false_and, if_false, zero_mul, Finset.sum_const_zero]

/-! ## A node number is a half, a block of the half and a row of the block -/

/-- `(p, i, r) ↦ (25 p + i) · 1000 + r` is a bijection onto the 50000 nodes; its inverse divides. -/
def nodeEquiv : Fin 2 × Fin 25 × Fin 1000 ≃ Fin 50000 where
  toFun t := nodeOf t.1 t.2.1 t.2.2
  invFun n := (⟨n.val / 25000, by have := n.isLt; omega⟩, ⟨n.val % 25000 / 1000, by omega⟩, ⟨n.val % 1000, by omega⟩)
  left_inv t := by
    obtain ⟨p, i, r⟩ := t
    have := p.isLt; have := i.isLt; have := r.isLt
    refine Prod.ext (Fin.ext ?_) (Prod.ext (Fin.ext ?_) (Fin.ext ?_)) <;> simp only [nodeOf] <;> omega
  right_inv n := by
    have := n.isLt
    refine Fin.ext ?_
    simp only [nodeOf]
    omega

/-- A sum over the nodes is the triple sum over halves, blocks and rows. -/
theorem sum_nodes {M : Type*} [AddCommMonoid M] (F : Fin 50000 → M) :
    ∑ n : Fin 50000, F n = ∑ p : Fin 2, ∑ i : Fin 25, ∑ r : Fin 1000, F (nodeOf p i r) := by
  rw [← Equiv.sum_comp nodeEquiv F]
  simp only [Fintype.sum_prod_type]
  rfl

end Pool

/-! ## The statement -/

/-- Element `(g, f)` of the reference's segment sum is the sum, over the two halves, the 25 blocks of a half and the
    1000 rows of a block, of the one-hot indicator of the row's graph id at `g` times the row's element `f`. -/
theorem pool_bridge (H : S50000x128.Idx → EReal) (x2 : S50000.Idx → BitVec 32) (g : Fin 256) (f : Fin 128) :
    Host.scatterAdd (F := Ideal) (φ := .f32) scatter_S256x128_S50000x1_S50000x128_1_0_0_1 (val_main_v56 (F := Ideal)) (val_main_v57 (F := Ideal) x2) H (ValueIdx.ix2 g f)
      = ∑ p : Fin 2, ∑ i : Fin 25, ∑ r : Fin 1000, ind (x2 (ValueIdx.ix1 (nodeOf p i r))) g * H (ValueIdx.ix2 (nodeOf p i r) f) := by
  rw [Pool.pool_nodes H x2 g f, Pool.sum_nodes]

end Cert.Bridge

end
-- ==== Proof.PoolScale.lean ====
import proofs.«409877_j67551245631640_3_alg».proof.Proof.KiSpec
import proofs.«409877_j67551245631640_3_alg».proof.Proof.LibRecip
import proofs.«409877_j67551245631640_3_alg».proof.Proof.Gen.ReferenceIdeal.Read
import proofs.«409877_j67551245631640_3_alg».proof.Proof.PoolBridge
import Idealize.ShloMosaic.Lib.ValueIdx
import Idealize.ShloMosaic.PureOps.Ideal.Laws

noncomputable section

/-! # The mean over each graph: two half sums scaled by a reciprocal, against one sum divided

The reference sums the second layer's rows over the nodes of each graph and divides the sum by `max (count, 1)`,
the count being the number of nodes of the graph. The other side holds the same sum in two halves — one per half of
the node range, each a double sum over blocks and rows of one-hot-masked entries — adds the halves, and multiplies
by `1 / max (count, 1)`. The sum over the two halves is the sum over all nodes, and multiplying by the reciprocal of
a divisor that is at least one is dividing by it. -/

namespace Cert.Bridge

open Idealize.ShloMosaic Cert.ReferenceIdeal Cert.ReferenceIdeal.Read
open Cert.KernelIdeal.Hand (layerAt nodeOf ind poolAt)

namespace Scale

/-! ## Where the divisor reads: the count vector spread along the feature axis, through a column -/

theorem idx66 (g : Fin 256) (f : Fin 128) : idx_main_v66 (ValueIdx.ix2 g f) = ValueIdx.ix2 g (0 : Fin 1) :=
  funext fun a => Fin.ext (by match a with | ⟨0, _⟩ => rfl | ⟨1, _⟩ => rfl)
theorem idx65 (g : Fin 256) : idx_main_v65 (ValueIdx.ix2 g (0 : Fin 1)) = ValueIdx.ix1 g :=
  funext fun a => Fin.ext (by match a with | ⟨0, _⟩ => rfl)

/-- The floored count of graph `g` is `max (count, 1)`. -/
theorem floored_count (x2 : S50000.Idx → BitVec 32) (g : Fin 256) :
    val_main_v64 (F := Ideal) x2 (ValueIdx.ix1 g)
      = max (val_main_v62 (F := Ideal) x2 (ValueIdx.ix1 g)) (Ideal.ofBits .f32 0x3F800000#32) := by
  rw [val_main_v64_apply, val_main_v63_apply, val_main_cst_13_apply, Ideal.maximumf_def, Ideal.ofBits_def]

/-- The divisor at `(g, f)` is the floored count of graph `g`, whatever the feature. -/
theorem divisor_at (x2 : S50000.Idx → BitVec 32) (g : Fin 256) (f : Fin 128) :
    val_main_v66 (F := Ideal) x2 (ValueIdx.ix2 g f)
      = max (val_main_v62 (F := Ideal) x2 (ValueIdx.ix1 g)) (Ideal.ofBits .f32 0x3F800000#32) := by
  rw [val_main_v66_apply, idx66, val_main_v65_apply, idx65, floored_count]

/-! ## The reference's sum over the nodes of a graph, as the triple sum over halves, blocks and rows -/

/-- Element `(g, f)` of the reference's per-graph sum of the second layer's rows. -/
theorem pooled_sum (x0 : S50000x128.Idx → EReal) (x1 : S2x800000.Idx → BitVec 32) (x2 : S50000.Idx → BitVec 32)
    (x3 x4 : S128x128.Idx → EReal) (x5 : S128.Idx → EReal) (x6 x7 : S128x128.Idx → EReal) (x8 : S128.Idx → EReal)
    (g : Fin 256) (f : Fin 128) :
    val_main_v58 (F := Ideal) x0 x1 x2 x3 x4 x5 x6 x7 x8 (ValueIdx.ix2 g f)
      = ∑ p : Fin 2, ∑ i : Fin 25, ∑ r : Fin 1000, ind (x2 (ValueIdx.ix1 (nodeOf p i r))) g
          * val_main_v55 (F := Ideal) x0 x1 x3 x4 x5 x6 x7 x8 (ValueIdx.ix2 (nodeOf p i r) f) := by
  unfold val_main_v58
  exact pool_bridge (val_main_v55 (F := Ideal) x0 x1 x3 x4 x5 x6 x7 x8) x2 g f

end Scale

/-! ## The mean -/

/-- The two halves' pooled sums, added and scaled by the reciprocal of the floored count, are the reference's mean of
    the second layer's rows over each graph, entry by entry. -/
theorem pooled_mean_bridge (x0 : S50000x128.Idx → EReal) (x1 : S2x800000.Idx → BitVec 32) (x2 : S50000.Idx → BitVec 32) (x3 x4 : S128x128.Idx → EReal) (x5 : S128.Idx → EReal)
    (x6 x7 : S128x128.Idx → EReal) (x8 : S128.Idx → EReal) (P : Cert.KernelIdeal.S2x256x128.Idx → EReal)
    (hP : ∀ (p : Fin 2) (g : Fin 256) (f : Fin 128), P (ValueIdx.ix3 p g f)
        = ∑ i : Fin 25, ∑ r : Fin 1000, ind (x2 (ValueIdx.ix1 (nodeOf p i r))) g * val_main_v55 (F := Ideal) x0 x1 x3 x4 x5 x6 x7 x8 (ValueIdx.ix2 (nodeOf p i r) f))
    (g : Fin 256) (f : Fin 128) :
    (P (ValueIdx.ix3 (0 : Fin 2) g f) + P (ValueIdx.ix3 (1 : Fin 2) g f)) * Ideal.div (Ideal.ofBits .f32 0x3F800000#32) (val_main_v64 (F := Ideal) x2 (ValueIdx.ix1 g))
      = val_main_v67 (F := Ideal) x0 x1 x2 x3 x4 x5 x6 x7 x8 (ValueIdx.ix2 g f) := by
  rw [val_main_v67_apply, Scale.divisor_at, Scale.pooled_sum, Ideal.hostDivf_def, Fin.sum_univ_two,
    ← hP 0 g f, ← hP 1 g f, Scale.floored_count, Cert.LibRecip.mul_recip_max]

end Cert.Bridge

end
-- ==== Proof.KiAssemble.lean ====
import proofs.«409877_j67551245631640_3_alg».proof.Proof.KiRun
import proofs.«409877_j67551245631640_3_alg».proof.Proof.KiValue0
import proofs.«409877_j67551245631640_3_alg».proof.Proof.KiValue1
import proofs.«409877_j67551245631640_3_alg».proof.Proof.KiHost
import proofs.«409877_j67551245631640_3_alg».proof.Proof.KiHost3
import proofs.«409877_j67551245631640_3_alg».proof.Proof.KiHostTail
import proofs.«409877_j67551245631640_3_alg».proof.Proof.LayerBridge
import proofs.«409877_j67551245631640_3_alg».proof.Proof.PoolBridge
import proofs.«409877_j67551245631640_3_alg».proof.Proof.PoolScale

noncomputable section

namespace Cert.KernelIdeal.Hand

open Cert.KernelIdeal Cert.KernelIdeal.Gen
open Idealize.ShloMosaic Idealize.ShloMosaic.TcCoe Idealize.SL.Sem

/-! # The kernel program's result is the reference's term of the arguments

Boundary by boundary: the first call's output is the reference's first layer; the second aggregation is then the
reference's; the second call's output, half by half, is the one-hot-masked sum of the reference's second layer
over the half's nodes; the two halves added and scaled are the reference's pooled mean; the classifier and the
log-softmax are shared. -/

variable (m : (ℓ : Loc nD τ sig) → Buf (Elt Ideal) ℓ) (ρ : Dev nD → PrngReg) (c : Dev nD)

/-- The arguments as launched. -/
abbrev x0 : S50000x128.Idx → EReal := m ((c.tc : Thread nD τ).loc main_arg0)
abbrev x1 : S2x800000.Idx → BitVec 32 := m ((c.tc : Thread nD τ).loc main_arg1)
abbrev x2 : S50000.Idx → BitVec 32 := m ((c.tc : Thread nD τ).loc main_arg2)
abbrev x3 : S128x128.Idx → EReal := m ((c.tc : Thread nD τ).loc main_arg3)
abbrev x4 : S128x128.Idx → EReal := m ((c.tc : Thread nD τ).loc main_arg4)
abbrev x5 : S128.Idx → EReal := m ((c.tc : Thread nD τ).loc main_arg5)
abbrev x6 : S128x128.Idx → EReal := m ((c.tc : Thread nD τ).loc main_arg6)
abbrev x7 : S128x128.Idx → EReal := m ((c.tc : Thread nD τ).loc main_arg7)
abbrev x8 : S128.Idx → EReal := m ((c.tc : Thread nD τ).loc main_arg8)
abbrev x9 : S128x2.Idx → EReal := m ((c.tc : Thread nD τ).loc main_arg9)
abbrev x10 : S2.Idx → EReal := m ((c.tc : Thread nD τ).loc main_arg10)

/-- The first call leaves the reference's first layer in its output array. -/
theorem first_layer : (V2 m ρ c main_v35 : S50000x128.Idx → EReal)
    = Cert.ReferenceIdeal.Read.val_main_v29 (F := Ideal) (x0 m c) (x1 m c) (x3 m c) (x4 m c) (x5 m c) := by
  have hA : (V2 m ρ c main_v35 : S50000x128.Idx → EReal) = (dat0 (F := Ideal) (V1 m ρ) c).arrAt 6 cfg0.N := W2_arr m ρ c 6
  rw [hA, arr0_6]
  funext j
  obtain ⟨n, f, rfl⟩ : ∃ (n : Fin 50000) (f : Fin 128), j = ValueIdx.ix2 n f := ⟨j 0, j 1, ValueIdx.eq_ix2 j⟩
  show layerAt (V1 m ρ c main_v34) (V1 m ρ c main_arg0) (V1 m ρ c main_v12) (V1 m ρ c main_arg3) (V1 m ρ c main_arg4) (V1 m ρ c main_v22) n f = _
  rw [host_agg1 m ρ c, (host_args1 m ρ c).1, (host_args1 m ρ c).2.1, (host_args1 m ρ c).2.2]
  exact Cert.Bridge.layer1_bridge (x0 m c) (x1 m c) (x3 m c) (x4 m c) (x5 m c) _ (host_dinv m ρ c) _ (host_b1row m ρ c) n f

/-- So the second aggregation is the reference's. -/
theorem second_agg : (V3 m ρ c main_v45 : S50000x128.Idx → EReal)
    = Cert.ReferenceIdeal.Read.val_main_v39 (F := Ideal) (x0 m c) (x1 m c) (x3 m c) (x4 m c) (x5 m c) :=
  host_agg2 m ρ c (first_layer m ρ c)

/-- Half `p` of the second call's output at graph `g`, feature `f`: the reference's second layer summed over the
    half's nodes whose graph id is `g`. -/
theorem pooled_half (p : Fin 2) (g : Fin 256) (f : Fin 128) :
    (V4 m ρ c main_v46 : S2x256x128.Idx → EReal) (ValueIdx.ix3 p g f)
      = ∑ i : Fin 25, ∑ r : Fin 1000, ind (x2 m c (ValueIdx.ix1 (nodeOf p i r))) g
          * Cert.ReferenceIdeal.Read.val_main_v55 (F := Ideal) (x0 m c) (x1 m c) (x3 m c) (x4 m c) (x5 m c) (x6 m c) (x7 m c) (x8 m c) (ValueIdx.ix2 (nodeOf p i r) f) := by
  have hA : (V4 m ρ c main_v46 : S2x256x128.Idx → EReal) = (dat1 (F := Ideal) (V3 m ρ) c).arrAt 7 cfg1.N := W4_arr m ρ c 7
  rw [hA, arr1_7]
  show poolAt (V3 m ρ c main_v45) (V3 m ρ c main_v35) (V3 m ρ c main_v12) (V3 m ρ c main_v24) (V3 m ρ c main_arg6) (V3 m ρ c main_arg7) (V3 m ρ c main_v23) p g f = _
  unfold poolAt
  refine Finset.sum_congr rfl fun i _ => Finset.sum_congr rfl fun r _ => ?_
  rw [host_batch m ρ c (nodeOf p i r), second_agg m ρ c, (host_keep3 m ρ c).1, first_layer m ρ c, (host_keep3 m ρ c).2,
    (host_args3 m ρ c).1, (host_args3 m ρ c).2]
  refine congrArg (fun z => ind (x2 m c (ValueIdx.ix1 (nodeOf p i r))) g * z) ?_
  exact Cert.Bridge.layer2_bridge (x0 m c) (x1 m c) (x3 m c) (x4 m c) (x5 m c) (x6 m c) (x7 m c) (x8 m c) _
    (fun n => by rw [host_deg_eq m c]; exact host_dinv m ρ c n) _ (host_b2row m ρ c) (nodeOf p i r) f

/-- The pooled mean the tail forms is the reference's. -/
theorem pooled_mean : (W5 m ρ c (Proc.devRef .tc main_v53) : S256x128.Idx → EReal)
    = Cert.ReferenceIdeal.Read.val_main_v67 (F := Ideal) (x0 m c) (x1 m c) (x2 m c) (x3 m c) (x4 m c) (x5 m c) (x6 m c) (x7 m c) (x8 m c) := by
  funext j
  obtain ⟨g, f, rfl⟩ : ∃ (g : Fin 256) (f : Fin 128), j = ValueIdx.ix2 g f := ⟨j 0, j 1, ValueIdx.eq_ix2 j⟩
  rw [host_pooled m ρ c (V4 m ρ c main_v46 : S2x256x128.Idx → EReal) rfl g f]
  exact Cert.Bridge.pooled_mean_bridge (x0 m c) (x1 m c) (x2 m c) (x3 m c) (x4 m c) (x5 m c) (x6 m c) (x7 m c) (x8 m c) (V4 m ρ c main_v46 : S2x256x128.Idx → EReal) (pooled_half m ρ c) g f

/-- THE VALUE: the kernel program's result buffer at the last boundary holds the reference's result term. -/
theorem kernel_value : (W6 m ρ c (Proc.devRef .tc main_v58) : S256x2.Idx → EReal)
    = Cert.ReferenceIdeal.Read.val_main_v72 (F := Ideal) (x0 m c) (x1 m c) (x2 m c) (x3 m c) (x4 m c) (x5 m c) (x6 m c) (x7 m c) (x8 m c) (x9 m c) (x10 m c) :=
  host_tail m ρ c (pooled_mean m ρ c)

end Cert.KernelIdeal.Hand

end
-- ==== Proof.lean ====
/- The certificate of a two-layer GraphSAGE classifier with mean pooling, written as two pipelined kernels between
   stretches of host operations, against its plain reference.

   The frames. Each kernel program is host operations, a first call, host operations, a second call, host
   operations. The first call computes one dense layer block by block, nothing carried between grid points. The second
   call carries a scratch accumulator along each half of its grid: zeroed at the half's first block, a block's pooled
   contribution added at every block, copied to the output at the half's last block; its proof data tracks the
   accumulator's contents point by point. The program's run is the composition of these segments, every unscoped
   buffer held at a named valuation at each boundary, and the argument arrays are read back unchanged at the end. The
   reference is host operations only.

   The values, over the extended reals. A layer is `max(Σ_k (agg·dinv)·W_l + Σ_k x·W_r + b, 0)` in the kernel, with
   `dinv = 1 / max(deg, 1)`, and `max((agg / max(deg, 1))·W_l + x·W_r + b, 0)` in the reference: `a · (1 / d) = a / d`
   for `d ≥ 1`, also at `d = +∞`, so no finiteness of the inputs is used. The kernel pools by a one-hot product
   accumulated over blocks and halves, the reference by a scatter-add over graph ids: both are the sum of the rows
   whose id is the graph, an id outside `[0, 256)` meeting no graph on either side. The mean's scaling is the same
   reciprocal law, and the classifier and the log-softmax are the same operations on both sides. -/
import proofs.«409877_j67551245631640_3_alg».proof.Defs
import proofs.«409877_j67551245631640_3_alg».proof.Proof.Gen.Kernel
import proofs.«409877_j67551245631640_3_alg».proof.Proof.Gen.KernelIdeal
import proofs.«409877_j67551245631640_3_alg».proof.Proof.Gen.ReferenceIdeal
import proofs.«409877_j67551245631640_3_alg».proof.Proof.Gen.Pre_finite_inputs
import proofs.«409877_j67551245631640_3_alg».proof.Proof.Gen.ReferenceIdeal.Run
import proofs.«409877_j67551245631640_3_alg».proof.Proof.Gen.ReferenceIdeal.Read
import proofs.«409877_j67551245631640_3_alg».proof.Proof.KRun
import proofs.«409877_j67551245631640_3_alg».proof.Proof.KiRun
import proofs.«409877_j67551245631640_3_alg».proof.Proof.KiAssemble
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs run to the same result: the kernel program's
    last boundary holds, at the result buffer, the reference's term of the arguments. -/
theorem algebraic : Cert.algebraic_KernelIdeal_ReferenceIdeal := by
  intro m ρ m' ρ' _ hagree
  refine ⟨fun c => Cert.KernelIdeal.Hand.W6 m ρ c (Proc.devRef .tc Cert.KernelIdeal.main_v58), ?_, ?_⟩
  · exact (θ_run Cert.KernelIdeal.defs _ _).mono (fun _ h c =>
      ⟨h c _ (Cert.KernelIdeal.Hand.mem_uc Cert.KernelIdeal.main_v58 (by decide)),
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c),
      (h c _ (Cert.KernelIdeal.Hand.mem_uc Cert.KernelIdeal.main_arg5 (by decide))).trans (Cert.KernelIdeal.Hand.W6_main_arg5 m ρ c),
      (h c _ (Cert.KernelIdeal.Hand.mem_uc Cert.KernelIdeal.main_arg6 (by decide))).trans (Cert.KernelIdeal.Hand.W6_main_arg6 m ρ c),
      (h c _ (Cert.KernelIdeal.Hand.mem_uc Cert.KernelIdeal.main_arg7 (by decide))).trans (Cert.KernelIdeal.Hand.W6_main_arg7 m ρ c),
      (h c _ (Cert.KernelIdeal.Hand.mem_uc Cert.KernelIdeal.main_arg8 (by decide))).trans (Cert.KernelIdeal.Hand.W6_main_arg8 m ρ c),
      (h c _ (Cert.KernelIdeal.Hand.mem_uc Cert.KernelIdeal.main_arg9 (by decide))).trans (Cert.KernelIdeal.Hand.W6_main_arg9 m ρ c),
      (h c _ (Cert.KernelIdeal.Hand.mem_uc Cert.KernelIdeal.main_arg10 (by decide))).trans (Cert.KernelIdeal.Hand.W6_main_arg10 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v72_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.KernelIdeal.Hand.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
